-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x16 : Shape := ⟨2, ![4194304, 16]⟩
abbrev S4194304 : Shape := ⟨1, ![4194304]⟩
abbrev S_ : Shape := ⟨0, ![]⟩

class Facts : Prop where
  bcast_S_S4194304x16 : S_.BroadcastsInDim S4194304x16 (![] : Fin 0 → Fin S4194304x16.rank)
  reducesTo_S4194304x16_S_d0_1 : S4194304x16.ReducesTo [0, 1] S_
  h_S_ : 0 < S_.numel
  bcast_S_S4194304 : S_.BroadcastsInDim S4194304 (![] : Fin 0 → Fin S4194304.rank)
  reducesTo_S4194304_S_d0 : S4194304.ReducesTo [0] S_

variable [Facts]

def fn {F : FTy → Type} [FloatOps F] (main_arg0 : FVec F S4194304x16 .f32) (main_arg1 : IVec S4194304 32) (main_arg2 : IVec S4194304 32) : IVec S_ 1 :=
  let main_v0 : FVec F S4194304x16 .f32 := Host.absf main_arg0
  let main_cst : FVec F S_ .f32 := constant S_ .f32 0x7F800000#32
  let main_v1 : FVec F S4194304x16 .f32 := broadcastInDim S4194304x16 ![] bcast_S_S4194304x16 main_cst
  let main_v2 : IVec S4194304x16 1 := cmpf .olt main_v0 main_v1
  let main_c : IVec S_ 1 := constantI S_ 1 1#1
  let main_v3 : IVec S_ 1 := (fun x v => Host.reduce IntOp.andi x v reducesTo_S4194304x16_S_d0_1 h_S_) main_v2 main_c
  let main_c_0 : IVec S_ 32 := constantI S_ 32 0#32
  let main_v4 : IVec S4194304 32 := broadcastInDim S4194304 ![] bcast_S_S4194304 main_c_0
  let main_v5 : IVec S4194304 1 := cmpi .sge main_arg1 main_v4
  let main_c_1 : IVec S_ 1 := constantI S_ 1 1#1
  let main_v6 : IVec S_ 1 := (fun x v => Host.reduce IntOp.andi x v reducesTo_S4194304_S_d0 h_S_) main_v5 main_c_1
  let main_v7 : IVec S_ 1 := andi main_v3 main_v6
  let main_c_2 : IVec S_ 32 := constantI S_ 32 16#32
  let main_v8 : IVec S4194304 32 := broadcastInDim S4194304 ![] bcast_S_S4194304 main_c_2
  let main_v9 : IVec S4194304 1 := cmpi .slt main_arg1 main_v8
  let main_c_3 : IVec S_ 1 := constantI S_ 1 1#1
  let main_v10 : IVec S_ 1 := (fun x v => Host.reduce IntOp.andi x v reducesTo_S4194304_S_d0 h_S_) main_v9 main_c_3
  let main_v11 : IVec S_ 1 := andi main_v7 main_v10
  main_v11
-- ==== Kernel.lean ====
abbrev S4194304x16 : Shape := ⟨2, ![4194304, 16]⟩
abbrev S4194304 : Shape := ⟨1, ![4194304]⟩
abbrev S2x1x8 : Shape := ⟨3, ![2, 1, 8]⟩
abbrev S8192x16 : Shape := ⟨2, ![8192, 16]⟩
abbrev S8192 : Shape := ⟨1, ![8192]⟩
abbrev S1x1x8 : Shape := ⟨3, ![1, 1, 8]⟩
abbrev S1x8 : Shape := ⟨2, ![1, 8]⟩
abbrev S8192x1 : Shape := ⟨2, ![8192, 1]⟩
abbrev S8192x8 : Shape := ⟨2, ![8192, 8]⟩
abbrev S8 : Shape := ⟨1, ![8]⟩
abbrev S_ : Shape := ⟨0, ![]⟩

abbrev nBuf : Space → Nat
  | .hbm => 27
  | .vmem => 12
  | .smem => 0
  | _ => 0

abbrev bufTy : (tb : Table) → Fin (tcTables nBuf tb) → BufTy
  | .hbm, ⟨0, _⟩ => ⟨S4194304x16, .f32⟩
  | .hbm, ⟨1, _⟩ => ⟨S4194304, .i32⟩
  | .hbm, ⟨2, _⟩ => ⟨S4194304, .i32⟩
  | .hbm, ⟨3, _⟩ => ⟨S2x1x8, .f32⟩
  | .hbm, ⟨4, _⟩ => ⟨S2x1x8, .f32⟩
  | .hbm, ⟨5, _⟩ => ⟨S_, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .i1⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .local _ .vmem, ⟨0, _⟩ => ⟨S8192x16, .f32⟩
  | .local _ .vmem, ⟨1, _⟩ => ⟨S8192x16, .f32⟩
  | .local _ .vmem, ⟨2, _⟩ => ⟨S8192, .i32⟩
  | .local _ .vmem, ⟨3, _⟩ => ⟨S8192, .i32⟩
  | .local _ .vmem, ⟨4, _⟩ => ⟨S8192, .i32⟩
  | .local _ .vmem, ⟨5, _⟩ => ⟨S8192, .i32⟩
  | .local _ .vmem, ⟨6, _⟩ => ⟨S1x1x8, .f32⟩
  | .local _ .vmem, ⟨7, _⟩ => ⟨S1x1x8, .f32⟩
  | .local _ .vmem, ⟨8, _⟩ => ⟨S1x1x8, .f32⟩
  | .local _ .vmem, ⟨9, _⟩ => ⟨S1x1x8, .f32⟩
  | .local _ .vmem, ⟨10, _⟩ => ⟨S1x8, .f32⟩
  | .local _ .vmem, ⟨11, _⟩ => ⟨S1x8, .f32⟩
  | _, _ => ⟨S4194304x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_cst_2 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_3 : Ref sig .tc := ⟨.hbm, 16, rfl⟩
abbrev main_call0_v0 : Ref sig .tc := ⟨.hbm, 17, rfl⟩
abbrev main_call0_v1 : Ref sig .tc := ⟨.hbm, 18, rfl⟩
abbrev main_v8 : Ref sig .tc := ⟨.hbm, 19, rfl⟩
abbrev main_cst_4 : Ref sig .tc := ⟨.hbm, 20, rfl⟩
abbrev main_v9 : Ref sig .tc := ⟨.hbm, 21, rfl⟩
abbrev main_cst_5 : Ref sig .tc := ⟨.hbm, 22, rfl⟩
abbrev main_v10 : Ref sig .tc := ⟨.hbm, 23, rfl⟩
abbrev main_cst_6 : Ref sig .tc := ⟨.hbm, 24, rfl⟩
abbrev main_v11 : Ref sig .tc := ⟨.hbm, 25, rfl⟩
abbrev main_v12 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 256], ![false, false]⟩

def cc0_transform_0 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 1 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  ![v1.toNat]

def cc0_transform_2 (i : grid0.Coords) : Fin 1 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  ![v1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8192 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S1x8_S1x8_0_0 : ∀ a, (![0, 0] : Fin 2 → Nat) a + S1x8.size a ≤ S1x8.size a
  h_S1x8 : 0 < S1x8.numel
  shapeCasts_S1x8_S1x8 : S1x8.ShapeCasts S1x8
  inb_S8192x16_S8192x16_0_0 : ∀ a, (![0, 0] : Fin 2 → Nat) a + S8192x16.size a ≤ S8192x16.size a
  h_S8192x16 : 0 < S8192x16.numel
  inb_S8192_S8192_0 : ∀ a, (![0] : Fin 1 → Nat) a + S8192.size a ≤ S8192.size a
  h_S8192 : 0 < S8192.numel
  iota_S8192x16_d1_w32 : S8192x16.Iotas .tc 32 [1]
  shapeCasts_S8192_S8192x1 : S8192.ShapeCasts S8192x1
  broadcasts_S8192x1_S8192x16 : S8192x1.Broadcasts S8192x16
  natLt_1_32 : 1 < 32
  reduces_S8192x16_S8192 : S8192x16.Reduces [1] S8192
  iota_S8192x8_d1_w32 : S8192x8.Iotas .tc 32 [1]
  broadcasts_S8192x1_S8192x8 : S8192x1.Broadcasts S8192x8
  reduces_S8192x8_S8 : S8192x8.Reduces [0] S8
  shapeCasts_S8_S1x8 : S8.ShapeCasts S1x8
  shapeCasts_S1x8_S1x1x8 : S1x8.ShapeCasts S1x1x8
  inb_S1x1x8_S1x1x8_0_0_0 : ∀ a, (![0, 0, 0] : Fin 3 → Nat) a + S1x1x8.size a ≤ S1x1x8.size a
  h_S1x1x8 : 0 < S1x1x8.numel
  reducesTo_S2x1x8_S8_d0_1 : S2x1x8.ReducesTo [0, 1] S8
  h_S_ : 0 < S_.numel
  bcast_S_S8 : S_.BroadcastsInDim S8 (![] : Fin 0 → Fin S8.rank)
  reducesTo_S8_S_d0 : S8.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x16.size a ≤ S4194304x16.size a
  hwx0_0 : ∀ i : grid0.Coords, EltTy.bits .f32 = 32 ∨ (Rect.block (s := S4194304x16) S8192x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192.size a ≤ S4194304.size a
  hwx0_1 : ∀ i : grid0.Coords, EltTy.bits .i32 = 32 ∨ (Rect.block (s := S4194304) S8192.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192.size a ≤ S4194304.size a
  hwx0_2 : ∀ i : grid0.Coords, EltTy.bits .i32 = 32 ∨ (Rect.block (s := S4194304) S8192.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x8.size a ≤ S2x1x8.size a
  hwx0_3 : ∀ i : grid0.Coords, EltTy.bits .f32 = 32 ∨ (Rect.block (s := S2x1x8) S1x1x8.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x8.size a ≤ S2x1x8.size a
  hwx0_4 : ∀ i : grid0.Coords, EltTy.bits .f32 = 32 ∨ (Rect.block (s := S2x1x8) S1x1x8.size (cc0_transform_4 i) (hinb0_4 i)).WholeWords (EltTy.packing .f32)

variable [Facts₀]

abbrev win0_0 : Pipeline.Window sig grid0 :=
  Pipeline.Window.ofSpec (Memref.whole main_arg0) S8192x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x1x8.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x1x8.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4194304x16 : Shape := ⟨2, ![4194304, 16]⟩
abbrev S4194304 : Shape := ⟨1, ![4194304]⟩
abbrev S4194304x1 : Shape := ⟨2, ![4194304, 1]⟩
abbrev S_ : Shape := ⟨0, ![]⟩
abbrev S4194304x1x1 : Shape := ⟨3, ![4194304, 1, 1]⟩
abbrev S1 : Shape := ⟨1, ![1]⟩
abbrev S1x1x1 : Shape := ⟨3, ![1, 1, 1]⟩
abbrev S8 : Shape := ⟨1, ![8]⟩

abbrev nBuf : Space → Nat
  | .hbm => 59
  | .vmem => 0
  | .smem => 0
  | _ => 0

abbrev bufTy : (tb : Table) → Fin (tcTables nBuf tb) → BufTy
  | .hbm, ⟨0, _⟩ => ⟨S4194304x16, .f32⟩
  | .hbm, ⟨1, _⟩ => ⟨S4194304, .i32⟩
  | .hbm, ⟨2, _⟩ => ⟨S4194304, .i32⟩
  | .hbm, ⟨3, _⟩ => ⟨S4194304x1, .i32⟩
  | .hbm, ⟨4, _⟩ => ⟨S_, .i32⟩
  | .hbm, ⟨5, _⟩ => ⟨S4194304x1, .i32⟩
  | .hbm, ⟨6, _⟩ => ⟨S4194304x1, .i1⟩
  | .hbm, ⟨7, _⟩ => ⟨S_, .i32⟩
  | .hbm, ⟨8, _⟩ => ⟨S4194304x1, .i32⟩
  | .hbm, ⟨9, _⟩ => ⟨S4194304x1, .i32⟩
  | .hbm, ⟨10, _⟩ => ⟨S4194304x1, .i32⟩
  | .hbm, ⟨11, _⟩ => ⟨S4194304x1x1, .i32⟩
  | .hbm, ⟨12, _⟩ => ⟨S1, .i32⟩
  | .hbm, ⟨13, _⟩ => ⟨S_, .i32⟩
  | .hbm, ⟨14, _⟩ => ⟨S4194304x1x1, .i32⟩
  | .hbm, ⟨15, _⟩ => ⟨S4194304x1x1, .i1⟩
  | .hbm, ⟨16, _⟩ => ⟨S1x1x1, .i32⟩
  | .hbm, ⟨17, _⟩ => ⟨S4194304x1x1, .i32⟩
  | .hbm, ⟨18, _⟩ => ⟨S4194304x1x1, .i1⟩
  | .hbm, ⟨19, _⟩ => ⟨S4194304x1x1, .i1⟩
  | .hbm, ⟨20, _⟩ => ⟨S_, .i1⟩
  | .hbm, ⟨21, _⟩ => ⟨S4194304x1, .i1⟩
  | .hbm, ⟨22, _⟩ => ⟨S4194304x1, .f32⟩
  | .hbm, ⟨23, _⟩ => ⟨S_, .f32⟩
  | .hbm, ⟨24, _⟩ => ⟨S4194304x1, .f32⟩
  | .hbm, ⟨25, _⟩ => ⟨S4194304x1, .f32⟩
  | .hbm, ⟨26, _⟩ => ⟨S4194304, .f32⟩
  | .hbm, ⟨27, _⟩ => ⟨S_, .f32⟩
  | .hbm, ⟨28, _⟩ => ⟨S4194304, .f32⟩
  | .hbm, ⟨29, _⟩ => ⟨S4194304, .f32⟩
  | .hbm, ⟨30, _⟩ => ⟨S4194304, .f32⟩
  | .hbm, ⟨31, _⟩ => ⟨S_, .f32⟩
  | .hbm, ⟨32, _⟩ => ⟨S8, .f32⟩
  | .hbm, ⟨33, _⟩ => ⟨S4194304x1, .i32⟩
  | .hbm, ⟨34, _⟩ => ⟨S8, .f32⟩
  | .hbm, ⟨35, _⟩ => ⟨S_, .f32⟩
  | .hbm, ⟨36, _⟩ => ⟨S4194304, .f32⟩
  | .hbm, ⟨37, _⟩ => ⟨S_, .f32⟩
  | .hbm, ⟨38, _⟩ => ⟨S8, .f32⟩
  | .hbm, ⟨39, _⟩ => ⟨S4194304x1, .i32⟩
  | .hbm, ⟨40, _⟩ => ⟨S8, .f32⟩
  | .hbm, ⟨41, _⟩ => ⟨S_, .f32⟩
  | .hbm, ⟨42, _⟩ => ⟨S8, .f32⟩
  | .hbm, ⟨43, _⟩ => ⟨S8, .i1⟩
  | .hbm, ⟨44, _⟩ => ⟨S_, .f32⟩
  | .hbm, ⟨45, _⟩ => ⟨S8, .f32⟩
  | .hbm, ⟨46, _⟩ => ⟨S8, .f32⟩
  | .hbm, ⟨47, _⟩ => ⟨S8, .f32⟩
  | .hbm, ⟨48, _⟩ => ⟨S_, .f32⟩
  | .hbm, ⟨49, _⟩ => ⟨S_, .f32⟩
  | .hbm, ⟨50, _⟩ => ⟨S8, .f32⟩
  | .hbm, ⟨51, _⟩ => ⟨S8, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | _, _ => ⟨S4194304x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_cst : Ref sig .tc := ⟨.hbm, 23, rfl⟩
abbrev main_call0_v14 : Ref sig .tc := ⟨.hbm, 24, rfl⟩
abbrev main_v1 : Ref sig .tc := ⟨.hbm, 25, rfl⟩
abbrev main_v2 : Ref sig .tc := ⟨.hbm, 26, rfl⟩
abbrev main_cst : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_cst_0 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_cst_1 : Ref sig .tc := ⟨.hbm, 35, rfl⟩
abbrev main_v9 : Ref sig .tc := ⟨.hbm, 36, rfl⟩
abbrev main_cst_2 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_cst_3 : Ref sig .tc := ⟨.hbm, 41, rfl⟩
abbrev main_v13 : Ref sig .tc := ⟨.hbm, 42, rfl⟩
abbrev main_v14 : Ref sig .tc := ⟨.hbm, 43, rfl⟩
abbrev main_cst_4 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_cst_5 : Ref sig .tc := ⟨.hbm, 48, rfl⟩
abbrev main_call1_v0 : Ref sig .tc := ⟨.hbm, 49, rfl⟩
abbrev main_call1_v1 : Ref sig .tc := ⟨.hbm, 50, rfl⟩
abbrev main_v18 : Ref sig .tc := ⟨.hbm, 51, rfl⟩
abbrev main_cst_6 : Ref sig .tc := ⟨.hbm, 52, rfl⟩
abbrev main_v19 : Ref sig .tc := ⟨.hbm, 53, rfl⟩
abbrev main_cst_7 : Ref sig .tc := ⟨.hbm, 54, rfl⟩
abbrev main_v20 : Ref sig .tc := ⟨.hbm, 55, rfl⟩
abbrev main_cst_8 : Ref sig .tc := ⟨.hbm, 56, rfl⟩
abbrev main_v21 : Ref sig .tc := ⟨.hbm, 57, rfl⟩
abbrev main_v22 : Ref sig .tc := ⟨.hbm, 58, rfl⟩

abbrev nD : Nat := 1
abbrev τ : Topo := Topo.v7x

variable {F : FTy → Type} [FloatOps F]

class Facts₀ : Prop where
  bcast_S4194304_S4194304x1_0 : S4194304.BroadcastsInDim S4194304x1 (![0] : Fin 1 → Fin S4194304x1.rank)
  bcast_S_S4194304x1 : S_.BroadcastsInDim S4194304x1 (![] : Fin 0 → Fin S4194304x1.rank)
  shapeCasts_S4194304x1_S4194304x1x1 : S4194304x1.ShapeCasts S4194304x1x1
  bcast_S_S4194304x1x1 : S_.BroadcastsInDim S4194304x1x1 (![] : Fin 0 → Fin S4194304x1x1.rank)
  bcast_S1_S1x1x1_2 : S1.BroadcastsInDim S1x1x1 (![2] : Fin 1 → Fin S1x1x1.rank)
  bcast_S1x1x1_S4194304x1x1_0_1_2 : S1x1x1.BroadcastsInDim S4194304x1x1 (![0, 1, 2] : Fin 3 → Fin S4194304x1x1.rank)
  reducesTo_S4194304x1x1_S4194304x1_d2 : S4194304x1x1.ReducesTo [2] S4194304x1
  h_S_ : 0 < S_.numel
  shapeCasts_S4194304x1_S4194304 : S4194304x1.ShapeCasts S4194304
  bcast_S_S4194304 : S_.BroadcastsInDim S4194304 (![] : Fin 0 → Fin S4194304.rank)
  bcast_S_S8 : S_.BroadcastsInDim S8 (![] : Fin 0 → Fin S8.rank)
  reducesTo_S8_S_d0 : S8.ReducesTo [0] S_
  gather_S4194304x16_S4194304x1x1_S4194304x1_n_1_0_0_1_2_11_wf : GatherDims.WF S4194304x16 S4194304x1x1 S4194304x1 [] [1] [0] [1] [0] 2 ![1, 1]
  scatter_S8_S4194304x1_S4194304_n_0_0_1_wf : ScatterDims.WF S8 S4194304x1 S4194304 [] [0] [0] 1

variable [Facts₀]

def gather_S4194304x16_S4194304x1x1_S4194304x1_n_1_0_0_1_2_11 : GatherDims S4194304x16 S4194304x1x1 S4194304x1 where
  offsetDims := []
  collapsedSliceDims := [1]
  operandBatchingDims := [0]
  startIndicesBatchingDims := [0]
  startIndexMap := [1]
  indexVectorDim := 2
  sliceSizes := ![1, 1]
  wf := gather_S4194304x16_S4194304x1x1_S4194304x1_n_1_0_0_1_2_11_wf
def scatter_S8_S4194304x1_S4194304_n_0_0_1 : ScatterDims S8 S4194304x1 S4194304 where
  updateWindowDims := []
  insertedWindowDims := [0]
  scatterDimsToOperandDims := [0]
  indexVectorDim := 1
  wf := scatter_S8_S4194304x1_S4194304_n_0_0_1_wf

class Facts : Prop extends Facts₀ where

variable [Facts]
-- ==== Proof.Pre.lean ====
/-
  What the precondition says of the class labels: every label names one of the 16 columns.

  The printed predicate is the conjunction of three whole-array tests, each an "and" over all entries: the scores are
  finite, every label is at least 0, every label is below 16 (the comparisons signed). Where the predicate is all
  ones each conjunct is one, and an "and" over all entries that is one had a one at every entry.
-/
import proofs.«429717_j43009802502462_1_alg».proof.Pre_finite_inputs
import Idealize.ShloMosaic.Lib.ReduceAll
import Idealize.ShloMosaic.Lib.ValueIdx

noncomputable section

namespace BER.Pre

open Idealize.ShloMosaic Idealize.ShloMosaic.ValueIdx Cert.Pre_finite_inputs

instance : Subsingleton S_.Idx := ⟨fun a b => funext fun d => d.elim0⟩

variable {F : FTy → Type} [FloatOps F] [Cert.Pre_finite_inputs.Facts]

/-- Under the precondition every class label, read signed, lies in [0, 16). -/
theorem label_range (x0 : FVec F S4194304x16 .f32) (x1 x2 : IVec S4194304 32)
    (h : Cert.Pre_finite_inputs.fn (F := F) x0 x1 x2 = fun _ => 1#1) (j : Fin 4194304) :
    0 ≤ (x1 (ix1 j)).toInt ∧ (x1 (ix1 j)).toInt < 16 := by
  have h0 := congrFun h ix0
  dsimp only [Cert.Pre_finite_inputs.fn] at h0
  obtain ⟨h12, h3⟩ := IntOp.andi_eq_one.1 h0
  obtain ⟨-, h2⟩ := IntOp.andi_eq_one.1 h12
  have hge := Host.reduce_andi_all _ _ _ _ _ h2 (ix1 j)
  have hlt := Host.reduce_andi_all _ _ _ _ _ h3 (ix1 j)
  have hge' : IntOp.cmpi .sge (x1 (ix1 j)) 0#32 = 1#1 := hge
  have hlt' : IntOp.cmpi .slt (x1 (ix1 j)) 16#32 = 1#1 := hlt
  have a := IntOp.cmpi_sge.1 hge'
  have b := IntOp.cmpi_slt.1 hlt'
  exact ⟨by simpa using a, by simpa using b⟩

end BER.Pre

end
-- ==== Proof.LibOneHot.lean ====
/-
  One-hot selection over the extended reals, and a pointwise property carried through a sort.

  A gather written as a matrix product: row `r` of the left factor is the indicator of one position, so the
  product's entry is the sum over positions `p` of `[v = p] · X p`, which is `X v` when `v` is one of the positions
  summed over and `0` otherwise (on the extended reals `0 · x = 0` and `1 · x = x` for every `x`, the infinities
  included, so nothing is asked of `X`). Summed chunk by chunk into an accumulator that starts at zero, the
  accumulator after the chunks below `B` is `X v` if `v < B` and `0` otherwise.

  A stable sort along an axis only permutes each fibre, so whatever holds of every entry of the operand holds of
  every entry of the result.
-/
import Idealize.ShloMosaic.PureOps.Ideal
import Idealize.ShloMosaic.PureOps.ShapeOps

noncomputable section

namespace Cert.Lib.OneHot

open Idealize.ShloMosaic

/-- Whatever holds of every entry of a sort's operand holds of every entry of its result: each result entry IS an
    operand entry (of the same fibre). -/
theorem sort_forall {s : Shape} {d : Nat} {α : Type} (cmp : α → α → BitVec 1) (x : s.Idx → α) (P : α → Prop)
    (h : ∀ i, P (x i)) (j : s.Idx) : P (Host.sort s d cmp x j) := by
  by_cases hd : d < s.rank
  · simp only [Host.sort, dif_pos hd]; exact h _
  · simp only [Host.sort, dif_neg hd]; exact h _

/-- The integer compare for equality answers `1` exactly at equal words. -/
theorem cmpi_eq_one_iff {w : Nat} (x y : BitVec w) : IntOp.cmpi .eq x y = 1#1 ↔ x = y := by
  unfold IntOp.cmpi
  by_cases h : x = y
  · subst h; simp
  · have hb : (x == y) = false := by simpa using h
    simp only [hb]
    constructor
    · intro e; exact absurd e (by decide)
    · intro e; exact absurd e h

/-- The equality bit of two 32-bit words, widened to 32 bits and read as a signed integer, is `1` or `0`. -/
theorem eqBit_toInt (x y : BitVec 32) : ((IntOp.cmpi .eq x y).setWidth 32).toInt = if x = y then 1 else 0 := by
  unfold IntOp.cmpi
  by_cases h : x = y
  · subst h; simp
  · have hb : (x == y) = false := by simpa using h
    show ((BitVec.ofBool (x == y)).setWidth 32).toInt = _
    rw [hb, if_neg h]
    decide

/-- THE ONE-HOT SUM. Over the `n` positions `o, …, o + n − 1`, the sum of `[v = position] · X position` is `X v` when
    `v` is one of them, else `0`. -/
theorem sum_onehot {n : ℕ} (v : BitVec 32) (o : ℕ) (ho : o + n ≤ 2 ^ 32) (X : ℕ → EReal) :
    ∑ j : Fin n, (if v = BitVec.ofNat 32 (o + j.val) then (1 : EReal) else 0) * X (o + j.val)
      = if o ≤ v.toNat ∧ v.toNat < o + n then X v.toNat else 0 := by
  have hne : ∀ j : Fin n, v.toNat ≠ o + j.val → v ≠ BitVec.ofNat 32 (o + j.val) := by
    intro j hj e
    apply hj
    have := congrArg BitVec.toNat e
    rw [BitVec.toNat_ofNat, Nat.mod_eq_of_lt (by have := j.isLt; omega)] at this
    exact this
  split
  · rename_i h
    rw [Finset.sum_eq_single (⟨v.toNat - o, by omega⟩ : Fin n)]
    · have e : o + (v.toNat - o) = v.toNat := by omega
      have hv : v = BitVec.ofNat 32 (o + (v.toNat - o)) := by
        rw [e]; apply BitVec.eq_of_toNat_eq; rw [BitVec.toNat_ofNat, Nat.mod_eq_of_lt v.isLt]
      rw [if_pos hv, one_mul, e]
    · intro j _ hj
      rw [if_neg (hne j (fun e => hj (Fin.ext (by simp only; omega)))), zero_mul]
    · intro h'; exact absurd (Finset.mem_univ _) h'
  · rename_i h
    refine Finset.sum_eq_zero fun j _ => ?_
    rw [if_neg (hne j (fun e => h (by have := j.isLt; omega))), zero_mul]

/-- ONE CHUNK MORE. The accumulator over the positions below `o`, plus the one-hot sum over the next `n`
    positions, is the accumulator over the positions below `o + n`. -/
theorem upto_add (v : BitVec 32) (o n : ℕ) (X : ℕ → EReal) :
    (if v.toNat < o then X v.toNat else 0) + (if o ≤ v.toNat ∧ v.toNat < o + n then X v.toNat else 0)
      = if v.toNat < o + n then X v.toNat else 0 := by
  by_cases h1 : v.toNat < o
  · rw [if_pos h1, if_neg (by omega), if_pos (by omega), add_zero]
  · by_cases h2 : v.toNat < o + n
    · rw [if_neg h1, if_pos ⟨by omega, h2⟩, if_pos h2, zero_add]
    · rw [if_neg h1, if_neg (by omega), if_neg h2, add_zero]

end Cert.Lib.OneHot

end
-- ==== Proof.LibBlockSum.lean ====
/-
  Sums by blocks, in a commutative additive monoid (the extended reals are one).

  A sum over `a * b` consecutive indices is the sum over `a` blocks of the sums over each block's
  `b` indices, the index of block `t` at offset `y` being `b * t + y` (`sum_blocks`; the instance
  at 25 blocks of 2000, stated at the literal 50000, is `sum_blocks_50000`). An accumulator that
  starts as `0 + s 0` and adds `s (n + 1)` at each step holds, after step `n`, the sum of
  `s 0, …, s n` (`acc_eq_sum`; over a finite run of steps, `acc_eq_sum_fin`).
-/
import Mathlib.Algebra.BigOperators.Fin
import Mathlib.Algebra.BigOperators.Group.Finset.Basic
import Mathlib.Data.Fintype.BigOperators
import Mathlib.Logic.Equiv.Fin.Basic
import Mathlib.Tactic.Ring

open scoped BigOperators

namespace Cert.Lib.BlockSum

/-- The index of block `t` at offset `y`, among `a` blocks of `b`, is below `a * b`. -/
theorem block_lt {a b : ℕ} (t : Fin a) (y : Fin b) : b * t.val + y.val < a * b :=
  calc b * t.val + y.val < b * t.val + b := Nat.add_lt_add_left y.isLt _
    _ = b * (t.val + 1) := (Nat.mul_succ b t.val).symm
    _ ≤ b * a := Nat.mul_le_mul_left b t.isLt
    _ = a * b := Nat.mul_comm b a

/-- A sum over `a * b` indices is the sum over `a` blocks of the sums over each block's `b`
    indices; block `t` at offset `y` is the index `b * t + y`. -/
theorem sum_blocks {M : Type*} [AddCommMonoid M] (a b : ℕ) (f : Fin (a * b) → M) :
    ∑ t : Fin a, ∑ y : Fin b, f ⟨b * t.val + y.val, block_lt t y⟩ = ∑ r : Fin (a * b), f r := by
  have h := (finProdFinEquiv (m := a) (n := b)).sum_comp f
  rw [← h, Fintype.sum_prod_type]
  refine Finset.sum_congr rfl fun t _ => Finset.sum_congr rfl fun y _ => ?_
  congr 1
  apply Fin.ext
  simp only [finProdFinEquiv_apply_val]
  exact Nat.add_comm _ _

/-- A sum over 50000 indices is the sum over 25 blocks of 2000; block `t` at offset `y` is the
    index `2000 * t + y`. -/
theorem sum_blocks_50000 {M : Type*} [AddCommMonoid M] (f : Fin 50000 → M) :
    ∑ t : Fin 25, ∑ y : Fin 2000, f ⟨2000 * t.val + y.val, by omega⟩ = ∑ r : Fin 50000, f r :=
  sum_blocks 25 2000 f

/-- An accumulator that starts as `0 + s 0` and adds `s (n + 1)` at step `n + 1` holds after step
    `n` the sum of `s 0, …, s n`. -/
theorem acc_eq_sum {M : Type*} [AddCommMonoid M] (s : ℕ → M) (S : ℕ → M) (h0 : S 0 = 0 + s 0)
    (hs : ∀ n, S (n + 1) = S n + s (n + 1)) (n : ℕ) : S n = ∑ t ∈ Finset.range (n + 1), s t := by
  induction n with
  | zero => rw [h0, zero_add, Finset.sum_range_one]
  | succ n ih => rw [hs, ih, Finset.sum_range_succ _ (n + 1)]

/-- The same over a finite run of `N + 1` steps: the accumulator's last value is the sum of all
    the steps' terms. -/
theorem acc_eq_sum_fin {M : Type*} [AddCommMonoid M] (N : ℕ) (s : Fin (N + 1) → M)
    (S : Fin (N + 1) → M) (h0 : S 0 = 0 + s 0)
    (hs : ∀ (n : ℕ) (h : n + 1 < N + 1), S ⟨n + 1, h⟩ = S ⟨n, by omega⟩ + s ⟨n + 1, h⟩) :
    S (Fin.last N) = ∑ t : Fin (N + 1), s t := by
  have key : ∀ (n : ℕ) (h : n < N + 1),
      S ⟨n, h⟩ = ∑ t ∈ Finset.range (n + 1), (if h' : t < N + 1 then s ⟨t, h'⟩ else 0) := by
    intro n
    induction n with
    | zero =>
      intro h
      rw [Finset.sum_range_one, dif_pos h]
      rw [zero_add] at h0
      exact h0
    | succ n ih =>
      intro h
      rw [hs n h, ih (by omega), Finset.sum_range_succ _ (n + 1), dif_pos h]
  have hN := key N (Nat.lt_succ_self N)
  have hr := Fin.sum_univ_eq_sum_range (fun t => if h' : t < N + 1 then s ⟨t, h'⟩ else 0) (N + 1)
  rw [show Fin.last N = ⟨N, Nat.lt_succ_self N⟩ from rfl, hN, ← hr]
  refine Finset.sum_congr rfl fun t _ => ?_
  rw [dif_pos t.isLt]

end Cert.Lib.BlockSum
-- ==== Proof.Spec.lean ====
/-
  The balanced error rate's two sums, as functions of the three argument arrays over the extended reals.

  Row j of the score matrix x (n rows, 16 columns) carries a class label t j and a group label g j. The row's error
  is e j = |1 − x[j, t j]|; group k's error sum is S k = Σ_j [g j = k] · e j and its size C k = Σ_j [g j = k].

  The kernel never indexes: it writes the selection as a product with the indicator row of the label,
  x[j, t j] = Σ_c x[j, c] · [t j = c], and the group sums as products with the indicator of the group. On the
  extended reals 0 · a = 0 and 1 · a = a for every a, the infinities included, so these are identities with no side
  condition on x; the only condition is that the label names a column (0 ≤ t j < 16), without which the indicator
  row is all zero. The kernel also adds the rows up block by block (512 blocks of 8192 rows) in two running sums that
  restart at block 256; a sum of the extended reals does not depend on grouping or order.
-/
import Idealize.ShloMosaic.PureOps.Ideal
import Idealize.ShloMosaic.PureOps.Ideal.Laws
import Idealize.ShloMosaic.Lib.ValueIdx
import proofs.«429717_j43009802502462_1_alg».proof.Proof.LibOneHot
import proofs.«429717_j43009802502462_1_alg».proof.Proof.LibBlockSum
import Mathlib.Algebra.BigOperators.Intervals

noncomputable section

namespace BER

open Idealize.ShloMosaic Idealize.ShloMosaic.ValueIdx
open scoped BigOperators

/-! ## The indicator of a label -/

/-- The indicator that the word v is the number n, as the kernel makes it: the equality bit, widened, read as a signed
    integer and converted exactly. -/
def hot (v : BitVec 32) (n : ℕ) : EReal :=
  (((((IntOp.cmpi .eq v (BitVec.ofNat 32 n)).setWidth 32).toInt : ℤ) : ℝ) : EReal)

theorem hot_eq (v : BitVec 32) (n : ℕ) : hot v n = if v = BitVec.ofNat 32 n then 1 else 0 := by
  unfold hot
  rw [Cert.Lib.OneHot.eqBit_toInt]
  split <;> simp

/-- A word read signed is the small number n exactly when it is n's word. -/
theorem toInt_eq_iff (v : BitVec 32) (n : ℕ) (hn : n < 2 ^ 31) : v.toInt = (n : ℤ) ↔ v = BitVec.ofNat 32 n := by
  constructor
  · intro h
    apply BitVec.eq_of_toNat_eq
    rw [BitVec.toNat_ofNat, Nat.mod_eq_of_lt (by omega)]
    have := v.isLt
    rw [BitVec.toInt_eq_toNat_cond] at h
    split at h <;> omega
  · intro h
    subst h
    rw [BitVec.toInt_eq_toNat_cond, BitVec.toNat_ofNat, Nat.mod_eq_of_lt (by omega)]
    rw [if_pos (by omega)]

/-- THE SELECTION. For a label that names one of the 16 columns, the indicator-weighted sum of a row is the row's
    entry at the label. -/
theorem sum_hot_cols (v : BitVec 32) (h0 : 0 ≤ v.toInt) (h16 : v.toInt < 16) (X : Fin 16 → EReal) :
    ∑ c : Fin 16, X c * hot v c.val = X ⟨v.toInt.toNat, by omega⟩ := by
  have hv : v.toNat = v.toInt.toNat := by
    have := v.isLt
    rw [BitVec.toInt_eq_toNat_cond] at h0 h16 ⊢
    split at h0 <;> omega
  have hlt : v.toNat < 16 := by omega
  have key := Cert.Lib.OneHot.sum_onehot (n := 16) v 0 (by norm_num) (fun n => if h : n < 16 then X ⟨n, h⟩ else 0)
  simp only [Nat.zero_add] at key
  rw [if_pos ⟨Nat.zero_le _, hlt⟩, dif_pos hlt] at key
  rw [← show (⟨v.toNat, hlt⟩ : Fin 16) = ⟨v.toInt.toNat, by omega⟩ from Fin.ext hv, ← key]
  refine Finset.sum_congr rfl fun c _ => ?_
  rw [hot_eq, dif_pos c.isLt, mul_comm]

/-! ## Rows, errors, group sums -/

/-- The float one, as both programs spell it. -/
abbrev one : EReal := Ideal.ofBits .f32 0x3F800000#32
/-- The float zero, as both programs spell it. -/
abbrev zero : EReal := Ideal.ofBits .f32 0x00000000#32

theorem zero_eq : zero = 0 := Ideal.ofBits_zero_f32

/-- The absolute value on the extended reals. -/
def absE (a : EReal) : EReal := max a (-a)

variable {n : ℕ}

/-- Row j's selected score, the kernel's way: the row weighted by the indicator of its label. -/
def selRow (x : (⟨2, ![n, 16]⟩ : Shape).Idx → EReal) (t : (⟨1, ![n]⟩ : Shape).Idx → BitVec 32) (j : Fin n) : EReal :=
  ∑ c : Fin 16, x (ix2 j c) * hot (t (ix1 j)) c.val

/-- Row j's error |1 − selected score|. -/
def errRow (x : (⟨2, ![n, 16]⟩ : Shape).Idx → EReal) (t : (⟨1, ![n]⟩ : Shape).Idx → BitVec 32) (j : Fin n) : EReal :=
  absE (one - selRow x t j)

/-- Group k's error sum over the rows. -/
def sumRows (x : (⟨2, ![n, 16]⟩ : Shape).Idx → EReal) (t g : (⟨1, ![n]⟩ : Shape).Idx → BitVec 32) (k : Fin 8) : EReal :=
  ∑ j : Fin n, errRow x t j * hot (g (ix1 j)) k.val

/-- Group k's size. -/
def cntRows (g : (⟨1, ![n]⟩ : Shape).Idx → BitVec 32) (k : Fin 8) : EReal :=
  ∑ j : Fin n, hot (g (ix1 j)) k.val

/-- With the label in range, the selected score is the entry at the label. -/
theorem selRow_eq (x : (⟨2, ![n, 16]⟩ : Shape).Idx → EReal) (t : (⟨1, ![n]⟩ : Shape).Idx → BitVec 32) (j : Fin n)
    (h0 : 0 ≤ (t (ix1 j)).toInt) (h16 : (t (ix1 j)).toInt < 16) :
    selRow x t j = x (ix2 j ⟨(t (ix1 j)).toInt.toNat, by omega⟩) :=
  sum_hot_cols (t (ix1 j)) h0 h16 fun c => x (ix2 j c)

/-- The group sum in the scatter's spelling: the errors of the rows whose group word, read signed, is k. -/
theorem sumRows_eq_ite (x : (⟨2, ![n, 16]⟩ : Shape).Idx → EReal) (t g : (⟨1, ![n]⟩ : Shape).Idx → BitVec 32) (k : Fin 8) :
    sumRows x t g k = ∑ j : Fin n, if (g (ix1 j)).toInt = (k.val : ℤ) then errRow x t j else 0 := by
  unfold sumRows
  refine Finset.sum_congr rfl fun j _ => ?_
  rw [hot_eq]
  by_cases h : g (ix1 j) = BitVec.ofNat 32 k.val
  · rw [if_pos h, if_pos ((toInt_eq_iff _ _ (by have := k.isLt; omega)).mpr h), mul_one]
  · rw [if_neg h, if_neg (fun h' => h ((toInt_eq_iff _ _ (by have := k.isLt; omega)).mp h')), mul_zero]

/-- The group size in the scatter's spelling: a one for each row whose group word, read signed, is k. -/
theorem cntRows_eq_ite (g : (⟨1, ![n]⟩ : Shape).Idx → BitVec 32) (k : Fin 8) :
    cntRows g k = ∑ j : Fin n, if (g (ix1 j)).toInt = (k.val : ℤ) then (1 : EReal) else 0 := by
  unfold cntRows
  refine Finset.sum_congr rfl fun j _ => ?_
  rw [hot_eq]
  by_cases h : g (ix1 j) = BitVec.ofNat 32 k.val
  · rw [if_pos h, if_pos ((toInt_eq_iff _ _ (by have := k.isLt; omega)).mpr h)]
  · rw [if_neg h, if_neg (fun h' => h ((toInt_eq_iff _ _ (by have := k.isLt; omega)).mp h'))]

/-! ## Blocks of rows -/

/-- A sum over the 4194304 rows is the sum over 512 blocks of the sums over each block's 8192 rows. -/
theorem sum_blocks_rows {M : Type*} [AddCommMonoid M] (f : Fin 4194304 → M) :
    ∑ b : Fin 512, ∑ r : Fin 8192, f ⟨8192 * b.val + r.val, by omega⟩ = ∑ j : Fin 4194304, f j :=
  Cert.Lib.BlockSum.sum_blocks 512 8192 f

/-! ## Two running sums that restart halfway -/

/-- A running sum over the blocks 0, 1, 2, … that restarts (from zero) at every block whose number is a multiple of
    256 holds, after block n, the sum of the blocks from the last restart up to n. -/
theorem running_eq {M : Type*} [AddCommMonoid M] (B acc : ℕ → M) (h0 : acc 0 = 0 + B 0)
    (hreset : ∀ n, (n + 1) % 256 = 0 → acc (n + 1) = 0 + B (n + 1))
    (hstep : ∀ n, (n + 1) % 256 ≠ 0 → acc (n + 1) = acc n + B (n + 1)) (n : ℕ) :
    acc n = ∑ b ∈ Finset.Ico (256 * (n / 256)) (n + 1), B b := by
  induction n with
  | zero => rw [h0, zero_add]; simp
  | succ n ih =>
    by_cases hm : (n + 1) % 256 = 0
    · rw [hreset n hm, zero_add]
      have : 256 * ((n + 1) / 256) = n + 1 := by omega
      rw [this, Finset.sum_Ico_succ_top (Nat.le_refl _), Finset.Ico_self, Finset.sum_empty, zero_add]
    · rw [hstep n hm, ih]
      have hq : (n + 1) / 256 = n / 256 := by omega
      rw [hq]
      exact (Finset.sum_Ico_succ_top (show 256 * (n / 256) ≤ n + 1 by omega) B).symm

/-- The two halves together are all 512 blocks. -/
theorem halves {M : Type*} [AddCommMonoid M] (B : ℕ → M) :
    (∑ b ∈ Finset.Ico (256 * (255 / 256)) (255 + 1), B b) + (∑ b ∈ Finset.Ico (256 * (511 / 256)) (511 + 1), B b)
      = ∑ b : Fin 512, B b.val := by
  rw [show 256 * (255 / 256) = 0 from rfl, show 256 * (511 / 256) = 256 from rfl, show 255 + 1 = 256 from rfl,
    show 511 + 1 = 512 from rfl, Finset.sum_Ico_consecutive B (by norm_num) (by norm_num), ← Finset.range_eq_Ico,
    Finset.sum_range]

end BER

end
-- ==== Proof.LibColumn.lean ====
/-
  A vector laid out as a column and repeated along the rows' second axis (jnp's v[:, None] against an [a, b] array).

  The vector [a] is cast to [a, 1] and broadcast to [a, b]; at (r, c) the result reads the vector at r, whatever c.
-/
import Idealize.ShloMosaic.Lib.Pipeline.Value
import Idealize.ShloMosaic.Lib.ValueIdx

noncomputable section

namespace Cert.Lib.Column

open Idealize.ShloMosaic Idealize.ShloMosaic.ValueIdx

variable {α : Type}

/-- The cast [a] → [a, 1] reads, at (r, 0), the vector at r. -/
theorem shapeCast_col_apply {a : ℕ} (v : (⟨1, ![a]⟩ : Shape).Idx → α) (h : (⟨1, ![a]⟩ : Shape).ShapeCasts ⟨2, ![a, 1]⟩)
    (r : Fin a) (u : Fin 1) : shapeCast ⟨2, ![a, 1]⟩ v h (ix2 r u) = v (ix1 r) :=
  shapeCast_apply v h _ _ (by
    have hu : u.val = 0 := by omega
    rw [Shape.rowMajor_val_two, Shape.rowMajor_val_one]
    show r.val = r.val * 1 + u.val
    rw [hu, Nat.mul_one, Nat.add_zero])

/-- The broadcast [a, 1] → [a, b] reads, at (r, c), the column at (r, 0). -/
theorem broadcastTo_col_apply {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r 0) :=
  broadcastTo_apply v h _ _ (fun d => match d with
    | ⟨0, _⟩ => by
      show r.val = if a = 1 then 0 else r.val
      split
      · have := r.isLt; omega
      · rfl
    | ⟨1, _⟩ => by
      show (0 : Fin 1).val = if (1 : ℕ) = 1 then 0 else c.val
      rw [if_pos rfl]; rfl)

/-- The two together: the vector at r. -/
theorem column_apply {a b : ℕ} (v : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (r : Fin a) (c : Fin b) :
    broadcastTo ⟨2, ![a, b]⟩ (shapeCast ⟨2, ![a, 1]⟩ v h1) h2 (ix2 r c) = v (ix1 r) :=
  (broadcastTo_col_apply _ h2 r c).trans (shapeCast_col_apply v h1 r 0)

end Cert.Lib.Column

end
-- ==== Proof.KBlock.lean ====
/-
  One block of 8192 rows, as the kernel's body computes it.

  From the block's scores x0 (8192 × 16), class labels x1 and group labels x2 the body makes the indicator matrices
  of the labels, the rows' selected scores (a lane sum of the scores times the class indicator), the rows' errors
  |1 − selected|, and two vectors of 8 entries: the errors summed per group (a row sum of the errors times the group
  indicator) and the group sizes (a row sum of the group indicator). Both are added into the running sums. Read entry
  by entry on the extended reals these are the block's group error sums and group sizes.
-/
import proofs.«429717_j43009802502462_1_alg».proof.Proof.Gen.KernelIdeal.Skeleton
import proofs.«429717_j43009802502462_1_alg».proof.Proof.Spec
import proofs.«429717_j43009802502462_1_alg».proof.Proof.LibColumn
import Idealize.ShloMosaic.Lib.Pipeline.Value
import Idealize.ShloMosaic.PureOps.Ideal.Laws

noncomputable section

namespace BER.K

open Idealize.ShloMosaic Idealize.ShloMosaic.ValueIdx Cert.KernelIdeal Cert.KernelIdeal.Gen

variable {F : FTy → Type} [FloatOps F]

/-! ## The block's three vectors, at any float family -/

/-- The class indicator matrix of a block: entry (r, c) is 1 where row r's class label is c. -/
def hotT (v4 : Vec F S8192 .i32) : FVec F S8192x16 .f32 :=
  sitofp .f32 (extui 32 (cmpi .eq (broadcastTo S8192x16 (shapeCast S8192x1 v4 shapeCasts_S8192_S8192x1) broadcasts_S8192x1_S8192x16)
    (iota .tc S8192x16 32 [1] iota_S8192x16_d1_w32)) natLt_1_32)

/-- The rows' errors |1 − Σ_c score · class indicator|. -/
def blockErr (v3 : Vec F S8192x16 .f32) (v4 : Vec F S8192 .i32) : FVec F S8192 .f32 :=
  absf (subf (broadcast S8192 (Scalar.ofBits .f32 0x3F800000#32))
    (multiReduction .add [1] S8192 (mulf v3 (hotT v4)) 0x00000000#32 reduces_S8192x16_S8192 (.inl rfl) rfl))

/-- The block's group error sums: Σ_r error r · group indicator (r, k). -/
def blockSum (v3 : Vec F S8192x16 .f32) (v4 v5 : Vec F S8192 .i32) : FVec F S8 .f32 :=
  multiReduction .add [0] S8 (mulf (broadcastTo S8192x8 (shapeCast S8192x1 (blockErr v3 v4) shapeCasts_S8192_S8192x1)
    broadcasts_S8192x1_S8192x8) (k0_pay6 v5)) 0x00000000#32 reduces_S8192x8_S8 (.inl rfl) rfl

/-- The block's group sizes: Σ_r group indicator (r, k). -/
def blockCnt (v5 : Vec F S8192 .i32) : FVec F S8 .f32 :=
  multiReduction .add [0] S8 (k0_pay6 v5) 0x00000000#32 reduces_S8192x8_S8 (.inl rfl) rfl

/-- The value stored into the first running sum is what was there plus the block's group error sums. -/
theorem pay7_eq (v3 : Vec F S8192x16 .f32) (v4 v5 : Vec F S8192 .i32) (v23 : Vec F S1x8 .f32) :
    k0_pay7 v3 v4 v5 v23
      = shapeCast S1x8 (addf v23 (shapeCast S1x8 (blockSum v3 v4 v5) shapeCasts_S8_S1x8)) shapeCasts_S1x8_S1x8 := rfl

/-- The value stored into the second running sum is what was there plus the block's group sizes. -/
theorem pay8_eq (v5 : Vec F S8192 .i32) (v33 : Vec F S1x8 .f32) :
    k0_pay8 v5 v33 = addf v33 (shapeCast S1x8 (blockCnt v5) shapeCasts_S8_S1x8) := rfl

/-! ## Read at an index, on the extended reals -/

theorem lift_cols (r : Fin 8192) (c : Fin 16) : reduces_S8192x16_S8192.lift (ix1 r) c = ix2 r c := by
  funext d
  match d with
  | ⟨0, _⟩ => exact Fin.ext rfl
  | ⟨1, _⟩ => exact Fin.ext rfl

theorem lift_rows (k : Fin 8) (r : Fin 8192) : reduces_S8192x8_S8.lift (ix1 k) r = ix2 r k := by
  funext d
  match d with
  | ⟨0, _⟩ => exact Fin.ext rfl
  | ⟨1, _⟩ => exact Fin.ext rfl

/-- The group indicator matrix at (r, k). -/
theorem hotG_apply (v5 : IVec S8192 32) (r : Fin 8192) (k : Fin 8) :
    k0_pay6 (F := Ideal) v5 (ix2 r k) = BER.hot (v5 (ix1 r)) k.val := by
  unfold k0_pay6 BER.hot
  dsimp only
  rw [sitofp_apply, extui_apply]
  show ((((IntOp.cmpi .eq (broadcastTo S8192x8 (shapeCast S8192x1 v5 shapeCasts_S8192_S8192x1) broadcasts_S8192x1_S8192x8 (ix2 r k))
    (iota .tc S8192x8 32 [1] iota_S8192x8_d1_w32 (ix2 r k))).setWidth 32).toInt : ℝ) : EReal) = _
  rw [Cert.Lib.Column.column_apply, iota_single_apply]

/-- The class indicator matrix at (r, c). -/
theorem hotT_apply (v4 : IVec S8192 32) (r : Fin 8192) (c : Fin 16) :
    hotT (F := Ideal) v4 (ix2 r c) = BER.hot (v4 (ix1 r)) c.val := by
  unfold hotT BER.hot
  rw [sitofp_apply, extui_apply]
  show ((((IntOp.cmpi .eq (broadcastTo S8192x16 (shapeCast S8192x1 v4 shapeCasts_S8192_S8192x1) broadcasts_S8192x1_S8192x16 (ix2 r c))
    (iota .tc S8192x16 32 [1] iota_S8192x16_d1_w32 (ix2 r c))).setWidth 32).toInt : ℝ) : EReal) = _
  rw [Cert.Lib.Column.column_apply, iota_single_apply]

/-- Row r's error. -/
theorem blockErr_apply (x0 : FVec Ideal S8192x16 .f32) (x1 : IVec S8192 32) (r : Fin 8192) :
    blockErr (F := Ideal) x0 x1 (ix1 r) = BER.errRow x0 x1 r := by
  unfold blockErr BER.errRow BER.absE BER.selRow
  show max (BER.one - multiReduction .add [1] S8192 (mulf x0 (hotT x1)) 0x00000000#32 reduces_S8192x16_S8192 (.inl rfl) rfl (ix1 r))
      (-(BER.one - multiReduction .add [1] S8192 (mulf x0 (hotT x1)) 0x00000000#32 reduces_S8192x16_S8192 (.inl rfl) rfl (ix1 r))) = _
  have e : multiReduction .add [1] S8192 (mulf x0 (hotT (F := Ideal) x1)) 0x00000000#32 reduces_S8192x16_S8192 (.inl rfl) rfl (ix1 r)
      = ∑ c : Fin 16, x0 (ix2 r c) * BER.hot (x1 (ix1 r)) c.val := by
    refine (Ideal.multiReduction_add_single (mulf x0 (hotT (F := Ideal) x1)) 0x00000000#32 reduces_S8192x16_S8192 (.inl rfl) rfl (ix1 r)).trans ?_
    show (∑ c : Fin 16, mulf x0 (hotT (F := Ideal) x1) (reduces_S8192x16_S8192.lift (ix1 r) c)) = _
    refine Finset.sum_congr rfl fun c _ => ?_
    rw [lift_cols, mulf_apply, hotT_apply]
  rw [e]

/-- The block's group error sums at group k. -/
theorem blockSum_apply (x0 : FVec Ideal S8192x16 .f32) (x1 x2 : IVec S8192 32) (k : Fin 8) :
    blockSum (F := Ideal) x0 x1 x2 (ix1 k) = BER.sumRows x0 x1 x2 k := by
  unfold blockSum BER.sumRows
  refine (Ideal.multiReduction_add_single _ 0x00000000#32 reduces_S8192x8_S8 (.inl rfl) rfl (ix1 k)).trans ?_
  show (∑ r : Fin 8192, mulf (broadcastTo S8192x8 (shapeCast S8192x1 (blockErr (F := Ideal) x0 x1) shapeCasts_S8192_S8192x1)
    broadcasts_S8192x1_S8192x8) (k0_pay6 (F := Ideal) x2) (reduces_S8192x8_S8.lift (ix1 k) r)) = _
  refine Finset.sum_congr rfl fun r _ => ?_
  rw [lift_rows, mulf_apply, Cert.Lib.Column.column_apply, blockErr_apply, hotG_apply]

/-- The block's group sizes at group k. -/
theorem blockCnt_apply (x2 : IVec S8192 32) (k : Fin 8) :
    blockCnt (F := Ideal) x2 (ix1 k) = BER.cntRows x2 k := by
  unfold blockCnt BER.cntRows
  refine (Ideal.multiReduction_add_single _ 0x00000000#32 reduces_S8192x8_S8 (.inl rfl) rfl (ix1 k)).trans ?_
  show (∑ r : Fin 8192, k0_pay6 (F := Ideal) x2 (reduces_S8192x8_S8.lift (ix1 k) r)) = _
  refine Finset.sum_congr rfl fun r _ => ?_
  rw [lift_rows, hotG_apply]

end BER.K

end
-- ==== Proof.LibViewUnit.lean ====
/-
  A whole-buffer load after whole-buffer stores reads the latest store.

  The executor names what a load reads after the stores L (last first) as a covered read of L. When the latest store
  went through the whole-shape rectangle at zero offsets, and the load reads through the same rectangle, the load
  reads that store's payload, whatever the earlier stores were.
-/
import Idealize.ShloMosaic.Lib.Pipeline.Value

noncomputable section

namespace Cert.Lib.ViewUnit

open Idealize.ShloMosaic

variable {Val : EltTy → Type} {S : Shape} {e : EltTy}

theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl,
    View.ld_unit_zero rfl]

end Cert.Lib.ViewUnit

end
-- ==== Proof.KPieces.lean ====
/-
  What one run of the kernel's body leaves in its two running sums and its two output blocks.

  The body keeps two rows of 8 entries between grid points: the group error sums and the group sizes so far. At a
  point whose second grid coordinate is 0 it first stores zeros into both; then it adds the block's group error
  sums into the first and the block's group sizes into the second, and stores each (reshaped to 1 × 1 × 8) into its
  output block. So after a point the first running sum is (zeros, or what the point before left) + the block's
  group error sums, the second likewise with the group sizes, and each output block is its running sum reshaped.
-/
import proofs.«429717_j43009802502462_1_alg».proof.Proof.Gen.KernelIdeal.Frame
import proofs.«429717_j43009802502462_1_alg».proof.Proof.KBlock
import proofs.«429717_j43009802502462_1_alg».proof.Proof.LibViewUnit
import Idealize.ShloMosaic.Lib.Pipeline.Value
import Idealize.ShloMosaic.Lib.Tactic

noncomputable section

namespace BER.K

open Idealize.ShloMosaic Idealize.ShloMosaic.TcCoe Idealize.SL.Sem Idealize.ShloMosaic.ValueIdx
open Cert.KernelIdeal Cert.KernelIdeal.Gen

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The row of zeros a restart stores. -/
abbrev z8 : Vec F S1x8 .f32 := broadcast S1x8 (Scalar.ofBits .f32 0x00000000#32)

/-- The first running sum after a block: what was there plus the block's group error sums. -/
def upd0 (x0 : Vec F S8192x16 .f32) (x1 x2 : Vec F S8192 .i32) (s : Vec F S1x8 .f32) : Vec F S1x8 .f32 :=
  addf s (shapeCast S1x8 (blockSum x0 x1 x2) shapeCasts_S8_S1x8)

/-- The second running sum after a block: what was there plus the block's group sizes. -/
def upd1 (x2 : Vec F S8192 .i32) (s : Vec F S1x8 .f32) : Vec F S1x8 .f32 :=
  addf s (shapeCast S1x8 (blockCnt x2) shapeCasts_S8_S1x8)

/-- An output block: the running sum as a 1 × 1 × 8 block. -/
def out3 (s : Vec F S1x8 .f32) : Vec F S1x1x8 .f32 := shapeCast S1x1x8 s shapeCasts_S1x8_S1x1x8

/-! ## The case without a restart -/

theorem sB0 (c : Dev nD) (i : grid0.Coords) (arg2 : Memref sig .tc .vmem S8192x16 .f32) (harg2 : arg2.IsWhole) (arg3 : Memref sig .tc .vmem S8192 .i32) (harg3 : arg3.IsWhole) (arg4 : Memref sig .tc .vmem S8192 .i32) (harg4 : arg4.IsWhole) (arg5 : Memref sig .tc .vmem S1x1x8 .f32) (harg5 : arg5.IsWhole) (arg6 : Memref sig .tc .vmem S1x1x8 .f32) (harg6 : arg6.IsWhole) (arg7 : Memref sig .tc .vmem S1x8 .f32) (harg7 : arg7.IsWhole) (arg8 : Memref sig .tc .vmem S1x8 .f32) (harg8 : arg8.IsWhole) (hc0 : ¬cond0_0 i) (x0 : Vec F S8192x16 .f32) (x1 : Vec F S8192 .i32) (x2 : Vec F S8192 .i32) (xs0 xs1 : Vec F S1x8 .f32) :
    sout0_B_0 c i arg2 harg2 arg3 harg3 arg4 harg4 arg5 harg5 arg6 harg6 arg7 harg7 arg8 harg8 hc0 x0 x1 x2 xs0 xs1 = upd0 x0 x1 x2 xs0 := by
  unfold sout0_B_0
  rw [View.read_writes_eq_canon _ _ _ (scover0_B_0 c i arg2 harg2 arg3 harg3 arg4 harg4 arg5 harg5 arg6 harg6 arg7 harg7 arg8 harg8 hc0 x0 x1 x2 xs0 xs1)]
  unfold kernelRun0_B
  dsimp only
  sl_unfold_words
  rw [View.canon_unit_zero hz2]
  simp only [View.readAt_eq_ld, harg2.read_unread, harg3.read_unread, harg4.read_unread, harg7.read_unread, harg8.read_unread,
    View.ld_unit_zero (S := S8192x16) hz2, View.ld_unit_zero (S := S8192) hz1, View.ld_unit_zero (S := S1x8) hz2,
    pay7_eq, pay8_eq, k0_pay1, k0_pay2, k0_pay3, k0_pay4, k0_pay5, shapeCast_self, upd0, upd1, out3]

theorem sB1 (c : Dev nD) (i : grid0.Coords) (arg2 : Memref sig .tc .vmem S8192x16 .f32) (harg2 : arg2.IsWhole) (arg3 : Memref sig .tc .vmem S8192 .i32) (harg3 : arg3.IsWhole) (arg4 : Memref sig .tc .vmem S8192 .i32) (harg4 : arg4.IsWhole) (arg5 : Memref sig .tc .vmem S1x1x8 .f32) (harg5 : arg5.IsWhole) (arg6 : Memref sig .tc .vmem S1x1x8 .f32) (harg6 : arg6.IsWhole) (arg7 : Memref sig .tc .vmem S1x8 .f32) (harg7 : arg7.IsWhole) (arg8 : Memref sig .tc .vmem S1x8 .f32) (harg8 : arg8.IsWhole) (hc0 : ¬cond0_0 i) (x0 : Vec F S8192x16 .f32) (x1 : Vec F S8192 .i32) (x2 : Vec F S8192 .i32) (xs0 xs1 : Vec F S1x8 .f32) :
    sout0_B_1 c i arg2 harg2 arg3 harg3 arg4 harg4 arg5 harg5 arg6 harg6 arg7 harg7 arg8 harg8 hc0 x0 x1 x2 xs0 xs1 = upd1 x2 xs1 := by
  unfold sout0_B_1
  rw [View.read_writes_eq_canon _ _ _ (scover0_B_1 c i arg2 harg2 arg3 harg3 arg4 harg4 arg5 harg5 arg6 harg6 arg7 harg7 arg8 harg8 hc0 x0 x1 x2 xs0 xs1)]
  unfold kernelRun0_B
  dsimp only
  sl_unfold_words
  rw [View.canon_unit_zero (S := S1x8) hz2]
  simp only [View.readAt_eq_ld, harg2.read_unread, harg3.read_unread, harg4.read_unread, harg7.read_unread, harg8.read_unread,
    View.ld_unit_zero (S := S8192x16) hz2, View.ld_unit_zero (S := S8192) hz1, View.ld_unit_zero (S := S1x8) hz2,
    pay7_eq, pay8_eq, k0_pay1, k0_pay2, k0_pay3, k0_pay4, k0_pay5, shapeCast_self, upd0, upd1, out3]

theorem oB3 (c : Dev nD) (i : grid0.Coords) (arg2 : Memref sig .tc .vmem S8192x16 .f32) (harg2 : arg2.IsWhole) (arg3 : Memref sig .tc .vmem S8192 .i32) (harg3 : arg3.IsWhole) (arg4 : Memref sig .tc .vmem S8192 .i32) (harg4 : arg4.IsWhole) (arg5 : Memref sig .tc .vmem S1x1x8 .f32) (harg5 : arg5.IsWhole) (arg6 : Memref sig .tc .vmem S1x1x8 .f32) (harg6 : arg6.IsWhole) (arg7 : Memref sig .tc .vmem S1x8 .f32) (harg7 : arg7.IsWhole) (arg8 : Memref sig .tc .vmem S1x8 .f32) (harg8 : arg8.IsWhole) (hc0 : ¬cond0_0 i) (x0 : Vec F S8192x16 .f32) (x1 : Vec F S8192 .i32) (x2 : Vec F S8192 .i32) (xs0 xs1 : Vec F S1x8 .f32) :
    out0_B_3 c i arg2 harg2 arg3 harg3 arg4 harg4 arg5 harg5 arg6 harg6 arg7 harg7 arg8 harg8 hc0 x0 x1 x2 xs0 xs1 = out3 (upd0 x0 x1 x2 xs0) := by
  unfold out0_B_3
  rw [View.read_writes_eq_canon _ _ _ (cover0_B_3 c i arg2 harg2 arg3 harg3 arg4 harg4 arg5 harg5 arg6 harg6 arg7 harg7 arg8 harg8 hc0 x0 x1 x2 xs0 xs1)]
  unfold kernelRun0_B
  dsimp only
  sl_unfold_words
  rw [View.canon_unit_zero (S := S1x1x8) hz3, Cert.Lib.ViewUnit.readCov_cons_unit_zero (S := S1x8) _ hz2]
  simp only [View.readAt_eq_ld, harg2.read_unread, harg3.read_unread, harg4.read_unread, harg7.read_unread, harg8.read_unread,
    View.ld_unit_zero (S := S8192x16) hz2, View.ld_unit_zero (S := S8192) hz1, View.ld_unit_zero (S := S1x8) hz2,
    pay7_eq, pay8_eq, k0_pay1, k0_pay2, k0_pay3, k0_pay4, k0_pay5, shapeCast_self, upd0, upd1, out3]

theorem oB4 (c : Dev nD) (i : grid0.Coords) (arg2 : Memref sig .tc .vmem S8192x16 .f32) (harg2 : arg2.IsWhole) (arg3 : Memref sig .tc .vmem S8192 .i32) (harg3 : arg3.IsWhole) (arg4 : Memref sig .tc .vmem S8192 .i32) (harg4 : arg4.IsWhole) (arg5 : Memref sig .tc .vmem S1x1x8 .f32) (harg5 : arg5.IsWhole) (arg6 : Memref sig .tc .vmem S1x1x8 .f32) (harg6 : arg6.IsWhole) (arg7 : Memref sig .tc .vmem S1x8 .f32) (harg7 : arg7.IsWhole) (arg8 : Memref sig .tc .vmem S1x8 .f32) (harg8 : arg8.IsWhole) (hc0 : ¬cond0_0 i) (x0 : Vec F S8192x16 .f32) (x1 : Vec F S8192 .i32) (x2 : Vec F S8192 .i32) (xs0 xs1 : Vec F S1x8 .f32) :
    out0_B_4 c i arg2 harg2 arg3 harg3 arg4 harg4 arg5 harg5 arg6 harg6 arg7 harg7 arg8 harg8 hc0 x0 x1 x2 xs0 xs1 = out3 (upd1 x2 xs1) := by
  unfold out0_B_4
  rw [View.read_writes_eq_canon _ _ _ (cover0_B_4 c i arg2 harg2 arg3 harg3 arg4 harg4 arg5 harg5 arg6 harg6 arg7 harg7 arg8 harg8 hc0 x0 x1 x2 xs0 xs1)]
  unfold kernelRun0_B
  dsimp only
  sl_unfold_words
  rw [View.canon_unit_zero (S := S1x1x8) hz3, Cert.Lib.ViewUnit.readCov_cons_unit_zero (S := S1x8) _ hz2]
  simp only [View.readAt_eq_ld, harg2.read_unread, harg3.read_unread, harg4.read_unread, harg7.read_unread, harg8.read_unread,
    View.ld_unit_zero (S := S8192x16) hz2, View.ld_unit_zero (S := S8192) hz1, View.ld_unit_zero (S := S1x8) hz2,
    pay7_eq, pay8_eq, k0_pay1, k0_pay2, k0_pay3, k0_pay4, k0_pay5, shapeCast_self, upd0, upd1, out3]

/-! ## The case with a restart -/

theorem sA0 (c : Dev nD) (i : grid0.Coords) (arg2 : Memref sig .tc .vmem S8192x16 .f32) (harg2 : arg2.IsWhole) (arg3 : Memref sig .tc .vmem S8192 .i32) (harg3 : arg3.IsWhole) (arg4 : Memref sig .tc .vmem S8192 .i32) (harg4 : arg4.IsWhole) (arg5 : Memref sig .tc .vmem S1x1x8 .f32) (harg5 : arg5.IsWhole) (arg6 : Memref sig .tc .vmem S1x1x8 .f32) (harg6 : arg6.IsWhole) (arg7 : Memref sig .tc .vmem S1x8 .f32) (harg7 : arg7.IsWhole) (arg8 : Memref sig .tc .vmem S1x8 .f32) (harg8 : arg8.IsWhole) (hc0 : cond0_0 i) (x0 : Vec F S8192x16 .f32) (x1 : Vec F S8192 .i32) (x2 : Vec F S8192 .i32) :
    sout0_A_0 c i arg2 harg2 arg3 harg3 arg4 harg4 arg5 harg5 arg6 harg6 arg7 harg7 arg8 harg8 hc0 x0 x1 x2 = upd0 x0 x1 x2 z8 := by
  unfold sout0_A_0
  rw [View.read_writes_eq_canon _ _ _ (scover0_A_0 c i arg2 harg2 arg3 harg3 arg4 harg4 arg5 harg5 arg6 harg6 arg7 harg7 arg8 harg8 hc0 x0 x1 x2)]
  unfold kernelRun0_A
  dsimp only
  sl_unfold_words
  rw [View.canon_cons_unit_zero (S := S1x8) hz2, Cert.Lib.ViewUnit.readCov_cons_unit_zero (S := S1x8) _ hz2]
  simp only [View.readAt_eq_ld, harg2.read_unread, harg3.read_unread, harg4.read_unread, harg7.read_unread, harg8.read_unread,
    View.ld_unit_zero (S := S8192x16) hz2, View.ld_unit_zero (S := S8192) hz1, View.ld_unit_zero (S := S1x8) hz2,
    pay7_eq, pay8_eq, k0_pay1, k0_pay2, k0_pay3, k0_pay4, k0_pay5, shapeCast_self, upd0, upd1, out3]

theorem sA1 (c : Dev nD) (i : grid0.Coords) (arg2 : Memref sig .tc .vmem S8192x16 .f32) (harg2 : arg2.IsWhole) (arg3 : Memref sig .tc .vmem S8192 .i32) (harg3 : arg3.IsWhole) (arg4 : Memref sig .tc .vmem S8192 .i32) (harg4 : arg4.IsWhole) (arg5 : Memref sig .tc .vmem S1x1x8 .f32) (harg5 : arg5.IsWhole) (arg6 : Memref sig .tc .vmem S1x1x8 .f32) (harg6 : arg6.IsWhole) (arg7 : Memref sig .tc .vmem S1x8 .f32) (harg7 : arg7.IsWhole) (arg8 : Memref sig .tc .vmem S1x8 .f32) (harg8 : arg8.IsWhole) (hc0 : cond0_0 i) (x0 : Vec F S8192x16 .f32) (x1 : Vec F S8192 .i32) (x2 : Vec F S8192 .i32) :
    sout0_A_1 c i arg2 harg2 arg3 harg3 arg4 harg4 arg5 harg5 arg6 harg6 arg7 harg7 arg8 harg8 hc0 x0 x1 x2 = upd1 x2 z8 := by
  unfold sout0_A_1
  rw [View.read_writes_eq_canon _ _ _ (scover0_A_1 c i arg2 harg2 arg3 harg3 arg4 harg4 arg5 harg5 arg6 harg6 arg7 harg7 arg8 harg8 hc0 x0 x1 x2)]
  unfold kernelRun0_A
  dsimp only
  sl_unfold_words
  rw [View.canon_cons_unit_zero (S := S1x8) hz2, Cert.Lib.ViewUnit.readCov_cons_unit_zero (S := S1x8) _ hz2]
  simp only [View.readAt_eq_ld, harg2.read_unread, harg3.read_unread, harg4.read_unread, harg7.read_unread, harg8.read_unread,
    View.ld_unit_zero (S := S8192x16) hz2, View.ld_unit_zero (S := S8192) hz1, View.ld_unit_zero (S := S1x8) hz2,
    pay7_eq, pay8_eq, k0_pay1, k0_pay2, k0_pay3, k0_pay4, k0_pay5, shapeCast_self, upd0, upd1, out3]

theorem oA3 (c : Dev nD) (i : grid0.Coords) (arg2 : Memref sig .tc .vmem S8192x16 .f32) (harg2 : arg2.IsWhole) (arg3 : Memref sig .tc .vmem S8192 .i32) (harg3 : arg3.IsWhole) (arg4 : Memref sig .tc .vmem S8192 .i32) (harg4 : arg4.IsWhole) (arg5 : Memref sig .tc .vmem S1x1x8 .f32) (harg5 : arg5.IsWhole) (arg6 : Memref sig .tc .vmem S1x1x8 .f32) (harg6 : arg6.IsWhole) (arg7 : Memref sig .tc .vmem S1x8 .f32) (harg7 : arg7.IsWhole) (arg8 : Memref sig .tc .vmem S1x8 .f32) (harg8 : arg8.IsWhole) (hc0 : cond0_0 i) (x0 : Vec F S8192x16 .f32) (x1 : Vec F S8192 .i32) (x2 : Vec F S8192 .i32) :
    out0_A_3 c i arg2 harg2 arg3 harg3 arg4 harg4 arg5 harg5 arg6 harg6 arg7 harg7 arg8 harg8 hc0 x0 x1 x2 = out3 (upd0 x0 x1 x2 z8) := by
  unfold out0_A_3
  rw [View.read_writes_eq_canon _ _ _ (cover0_A_3 c i arg2 harg2 arg3 harg3 arg4 harg4 arg5 harg5 arg6 harg6 arg7 harg7 arg8 harg8 hc0 x0 x1 x2)]
  unfold kernelRun0_A
  dsimp only
  sl_unfold_words
  rw [View.canon_unit_zero (S := S1x1x8) hz3, Cert.Lib.ViewUnit.readCov_cons_unit_zero (S := S1x8) _ hz2, Cert.Lib.ViewUnit.readCov_cons_unit_zero (S := S1x8) _ hz2]
  simp only [View.readAt_eq_ld, harg2.read_unread, harg3.read_unread, harg4.read_unread, harg7.read_unread, harg8.read_unread,
    View.ld_unit_zero (S := S8192x16) hz2, View.ld_unit_zero (S := S8192) hz1, View.ld_unit_zero (S := S1x8) hz2,
    pay7_eq, pay8_eq, k0_pay1, k0_pay2, k0_pay3, k0_pay4, k0_pay5, shapeCast_self, upd0, upd1, out3]

theorem oA4 (c : Dev nD) (i : grid0.Coords) (arg2 : Memref sig .tc .vmem S8192x16 .f32) (harg2 : arg2.IsWhole) (arg3 : Memref sig .tc .vmem S8192 .i32) (harg3 : arg3.IsWhole) (arg4 : Memref sig .tc .vmem S8192 .i32) (harg4 : arg4.IsWhole) (arg5 : Memref sig .tc .vmem S1x1x8 .f32) (harg5 : arg5.IsWhole) (arg6 : Memref sig .tc .vmem S1x1x8 .f32) (harg6 : arg6.IsWhole) (arg7 : Memref sig .tc .vmem S1x8 .f32) (harg7 : arg7.IsWhole) (arg8 : Memref sig .tc .vmem S1x8 .f32) (harg8 : arg8.IsWhole) (hc0 : cond0_0 i) (x0 : Vec F S8192x16 .f32) (x1 : Vec F S8192 .i32) (x2 : Vec F S8192 .i32) :
    out0_A_4 c i arg2 harg2 arg3 harg3 arg4 harg4 arg5 harg5 arg6 harg6 arg7 harg7 arg8 harg8 hc0 x0 x1 x2 = out3 (upd1 x2 z8) := by
  unfold out0_A_4
  rw [View.read_writes_eq_canon _ _ _ (cover0_A_4 c i arg2 harg2 arg3 harg3 arg4 harg4 arg5 harg5 arg6 harg6 arg7 harg7 arg8 harg8 hc0 x0 x1 x2)]
  unfold kernelRun0_A
  dsimp only
  sl_unfold_words
  rw [View.canon_unit_zero (S := S1x1x8) hz3, Cert.Lib.ViewUnit.readCov_cons_unit_zero (S := S1x8) _ hz2, Cert.Lib.ViewUnit.readCov_cons_unit_zero (S := S1x8) _ hz2]
  simp only [View.readAt_eq_ld, harg2.read_unread, harg3.read_unread, harg4.read_unread, harg7.read_unread, harg8.read_unread,
    View.ld_unit_zero (S := S8192x16) hz2, View.ld_unit_zero (S := S8192) hz1, View.ld_unit_zero (S := S1x8) hz2,
    pay7_eq, pay8_eq, k0_pay1, k0_pay2, k0_pay3, k0_pay4, k0_pay5, shapeCast_self, upd0, upd1, out3]

end BER.K

end
-- ==== Proof.KChain.lean ====
/-
  From grid points to the kernel's two result arrays.

  The grid has 512 points; point n reads block n of the rows (8192 rows) and both output windows sit on block n / 256 of
  their 2 × 1 × 8 arrays, written back after the points 255 and 511. By induction on the point, what the body leaves
  after point n is: the two running sums, restarted at the points 0 and 256, each increased by block n's
  contribution; and the two output blocks, the running sums reshaped. So row h of the first result array ends as
  the first running sum after point 256 h + 255, and the second likewise.
-/
import proofs.«429717_j43009802502462_1_alg».proof.Proof.KPieces
import Idealize.ShloMosaic.Lib.Pipeline.Value
import Idealize.ShloMosaic.Lib.ValueLayout

noncomputable section

namespace BER.K

open Idealize.ShloMosaic Idealize.ShloMosaic.TcCoe Idealize.SL.Sem Idealize.ShloMosaic.ValueIdx
open Idealize.ShloMosaic.Pipeline (Dat)
open Cert.KernelIdeal Cert.KernelIdeal.Gen

variable {F : FTy → Type} [FloatOps F]
variable (m : (ℓ : Loc nD τ sig) → Buf (Elt F) ℓ)

/-! ## The blocks a point reads, at their literal types -/

abbrev xb0 (c : Dev nD) (t : Fin cfg0.N) : Vec F S8192x16 .f32 := iblk m c 0 t
abbrev xb1 (c : Dev nD) (t : Fin cfg0.N) : Vec F S8192 .i32 := iblk m c 1 t
abbrev xb2 (c : Dev nD) (t : Fin cfg0.N) : Vec F S8192 .i32 := iblk m c 2 t

/-! ## The running sums after each point -/

/-- The first running sum after point n. -/
def run0 (c : Dev nD) : (n : ℕ) → n < cfg0.N → Vec F S1x8 .f32
  | 0, h => upd0 (xb0 m c ⟨0, h⟩) (xb1 m c ⟨0, h⟩) (xb2 m c ⟨0, h⟩) z8
  | n + 1, h =>
    if (n + 1) % 256 = 0 then upd0 (xb0 m c ⟨n + 1, h⟩) (xb1 m c ⟨n + 1, h⟩) (xb2 m c ⟨n + 1, h⟩) z8
    else upd0 (xb0 m c ⟨n + 1, h⟩) (xb1 m c ⟨n + 1, h⟩) (xb2 m c ⟨n + 1, h⟩) (run0 c n (Nat.lt_of_succ_lt h))

/-- The second running sum after point n. -/
def run1 (c : Dev nD) : (n : ℕ) → n < cfg0.N → Vec F S1x8 .f32
  | 0, h => upd1 (xb2 m c ⟨0, h⟩) z8
  | n + 1, h =>
    if (n + 1) % 256 = 0 then upd1 (xb2 m c ⟨n + 1, h⟩) z8
    else upd1 (xb2 m c ⟨n + 1, h⟩) (run1 c n (Nat.lt_of_succ_lt h))

theorem run0_congr (c : Dev nD) {n n' : ℕ} (e : n = n') (h : n < cfg0.N) (h' : n' < cfg0.N) : run0 m c n h = run0 m c n' h' := by
  subst e; rfl
theorem run1_congr (c : Dev nD) {n n' : ℕ} (e : n = n') (h : n < cfg0.N) (h' : n' < cfg0.N) : run1 m c n h = run1 m c n' h' := by
  subst e; rfl

/-- What the body leaves after point n: the output blocks are the running sums reshaped. -/
theorem outs_eq (c : Dev nD) : ∀ (n : ℕ) (h : n < cfg0.N),
    outsAt0 m c n h = (out3 (run0 m c n h), out3 (run1 m c n h), run0 m c n h, run1 m c n h)
  | 0, h => by
    rw [outsAt0_A m c ⟨0, h⟩ (Nat.zero_mod _), Prod.mk.injEq, Prod.mk.injEq, Prod.mk.injEq]
    exact ⟨oA3 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) scM0_1 (Memref.isWhole_whole _) _ (xb0 m c ⟨0, h⟩) (xb1 m c ⟨0, h⟩) (xb2 m c ⟨0, h⟩),
      oA4 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) scM0_1 (Memref.isWhole_whole _) _ (xb0 m c ⟨0, h⟩) (xb1 m c ⟨0, h⟩) (xb2 m c ⟨0, h⟩),
      sA0 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) scM0_1 (Memref.isWhole_whole _) _ (xb0 m c ⟨0, h⟩) (xb1 m c ⟨0, h⟩) (xb2 m c ⟨0, h⟩),
      sA1 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) scM0_1 (Memref.isWhole_whole _) _ (xb0 m c ⟨0, h⟩) (xb1 m c ⟨0, h⟩) (xb2 m c ⟨0, h⟩)⟩
  | n + 1, h => by
    by_cases h0 : (n + 1) % 256 = 0
    · have e0 : run0 m c (n + 1) h = upd0 (xb0 m c ⟨n + 1, h⟩) (xb1 m c ⟨n + 1, h⟩) (xb2 m c ⟨n + 1, h⟩) z8 := by
        rw [run0]; exact if_pos h0
      have e1 : run1 m c (n + 1) h = upd1 (xb2 m c ⟨n + 1, h⟩) z8 := by
        rw [run1]; exact if_pos h0
      rw [outsAt0_A m c ⟨n + 1, h⟩ h0, e0, e1, Prod.mk.injEq, Prod.mk.injEq, Prod.mk.injEq]
      exact ⟨oA3 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) _ (xb0 m c ⟨n + 1, h⟩) (xb1 m c ⟨n + 1, h⟩) (xb2 m c ⟨n + 1, h⟩),
        oA4 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) _ (xb0 m c ⟨n + 1, h⟩) (xb1 m c ⟨n + 1, h⟩) (xb2 m c ⟨n + 1, h⟩),
        sA0 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) _ (xb0 m c ⟨n + 1, h⟩) (xb1 m c ⟨n + 1, h⟩) (xb2 m c ⟨n + 1, h⟩),
        sA1 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) _ (xb0 m c ⟨n + 1, h⟩) (xb1 m c ⟨n + 1, h⟩) (xb2 m c ⟨n + 1, h⟩)⟩
    · have ih := outs_eq c n (Nat.lt_of_succ_lt h)
      have p0 : (outsAt0 m c ((⟨n + 1, h⟩ : Fin cfg0.N).val - 1) (Nat.lt_of_le_of_lt (Nat.sub_le _ _) (⟨n + 1, h⟩ : Fin cfg0.N).isLt)).2.2.1
          = run0 m c n (Nat.lt_of_succ_lt h) := by
        show (outsAt0 m c n _).2.2.1 = _
        rw [ih]
      have p1 : (outsAt0 m c ((⟨n + 1, h⟩ : Fin cfg0.N).val - 1) (Nat.lt_of_le_of_lt (Nat.sub_le _ _) (⟨n + 1, h⟩ : Fin cfg0.N).isLt)).2.2.2
          = run1 m c n (Nat.lt_of_succ_lt h) := by
        show (outsAt0 m c n _).2.2.2 = _
        rw [ih]
      have e0 : run0 m c (n + 1) h
          = upd0 (xb0 m c ⟨n + 1, h⟩) (xb1 m c ⟨n + 1, h⟩) (xb2 m c ⟨n + 1, h⟩) (run0 m c n (Nat.lt_of_succ_lt h)) := by
        rw [run0]; exact if_neg h0
      have e1 : run1 m c (n + 1) h = upd1 (xb2 m c ⟨n + 1, h⟩) (run1 m c n (Nat.lt_of_succ_lt h)) := by
        rw [run1]; exact if_neg h0
      rw [outsAt0_B m c ⟨n + 1, h⟩ h0, p0, p1, e0, e1, Prod.mk.injEq, Prod.mk.injEq, Prod.mk.injEq]
      exact ⟨oB3 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) _ (xb0 m c ⟨n + 1, h⟩) (xb1 m c ⟨n + 1, h⟩) (xb2 m c ⟨n + 1, h⟩) _ _,
        oB4 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) _ (xb0 m c ⟨n + 1, h⟩) (xb1 m c ⟨n + 1, h⟩) (xb2 m c ⟨n + 1, h⟩) _ _,
        sB0 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) _ (xb0 m c ⟨n + 1, h⟩) (xb1 m c ⟨n + 1, h⟩) (xb2 m c ⟨n + 1, h⟩) _ _,
        sB1 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) _ (xb0 m c ⟨n + 1, h⟩) (xb1 m c ⟨n + 1, h⟩) (xb2 m c ⟨n + 1, h⟩) _ _⟩

/-! ## The index maps, decided over the grid -/

/-- Both output windows sit on block t / 256; input window w reads block t of its array. -/
theorem idx_facts : ∀ t : Fin cfg0.N,
    win0_3.index t (0 : Fin 3) = t.val / 256 ∧ win0_3.index t (1 : Fin 3) = 0 ∧ win0_3.index t (2 : Fin 3) = 0
    ∧ win0_4.index t (0 : Fin 3) = t.val / 256 ∧ win0_4.index t (1 : Fin 3) = 0 ∧ win0_4.index t (2 : Fin 3) = 0
    ∧ win0_0.index t (0 : Fin 2) = t.val ∧ win0_0.index t (1 : Fin 2) = 0
    ∧ win0_1.index t (0 : Fin 1) = t.val ∧ win0_2.index t (0 : Fin 1) = t.val :=
  (by decide +kernel : ∀ t : Fin grid0.N, _)

/-- An output block read at (u, v, q) is the running sum at (v, q). -/
theorem out3_apply (s : Vec F S1x8 .f32) (u v : Fin 1) (q : Fin 8) : out3 s (ix3 u v q) = s (ix2 v q) :=
  shapeCast_ab_1ab_apply s shapeCasts_S1x8_S1x1x8 u v q

/-- The same at any index of the block, by its coordinates. -/
theorem out3_at (s : Vec F S1x8 .f32) (y : S1x1x8.Idx) :
    out3 s y = s (ix2 ⟨(y 1).val, (y 1).isLt⟩ ⟨(y 2).val, (y 2).isLt⟩) :=
  (congrArg (out3 s) (eq_ix3 y)).trans (out3_apply s (y 0) (y 1) (y 2))

/-! ## The two result arrays -/

/-- Row h of result array one ends as the first running sum after point 256 h + 255. -/
def G3fun (c : Dev nD) : Vec F S2x1x8 .f32 := fun i =>
  run0 m c (256 * (i 0).val + 255) (by have h2 : (i 0).val < 2 := (i 0).isLt; have hN : cfg0.N = 512 := N_0; omega)
    (ix2 ⟨(i 1).val, (i 1).isLt⟩ ⟨(i 2).val, (i 2).isLt⟩)
abbrev G3 (c : Dev nD) : Buf (Elt F) ((c : Thread nD τ).loc main_v0_0) := G3fun m c

/-- What a write-back point writes is its block of that array. -/
theorem flushed3_eq (c : Dev nD) (t : Fin cfg0.N) (hf : (cfg0.win 3).flush t = true) :
    (dats m 0 c).flushed 3 t = ((cfg0.win 3).blk t).view.read (Elt F) (G3 m c) := by
  have h255 : t.val % 256 = 255 := (flush0_3 t).mp hf
  have hN : t.val < 512 := lt_of_lt_of_eq t.isLt (show cfg0.N = 512 from N_0)
  obtain ⟨e30, e31, e32, e40, e41, e42, -⟩ := idx_facts t
  show (cfg0.win 3).cut (grid0.coords t) ((dats m 0 c).after 3 t) = _
  rw [after0_3, outs_eq]
  dsimp only
  funext y
  show out3 (run0 m c t.val t.isLt) y = G3fun m c (((cfg0.win 3).blk t).view.emb y)
  have hy0 : (y 0).val < 1 := (y 0).isLt
  have hy1 : (y 1).val < 1 := (y 1).isLt
  have k0 : ((((cfg0.win 3).blk t).view.emb y) 0).val = t.val / 256 := by
    show win0_3.index t (0 : Fin 3) * 1 + 1 * (y 0).val = _
    omega
  have k1 : ((((cfg0.win 3).blk t).view.emb y) 1).val = (y 1).val := by
    show win0_3.index t (1 : Fin 3) * 1 + 1 * (y 1).val = _
    omega
  have k2 : ((((cfg0.win 3).blk t).view.emb y) 2).val = (y 2).val := by
    show win0_3.index t (2 : Fin 3) * 8 + 1 * (y 2).val = _
    omega
  unfold G3fun
  rw [run0_congr m c (show 256 * ((((cfg0.win 3).blk t).view.emb y) 0).val + 255 = t.val by rw [k0]; omega) _ t.isLt]
  refine (out3_at _ y).trans ?_
  refine congrArg _ ?_
  funext a
  match a with
  | ⟨0, _⟩ => exact Fin.ext k1.symm
  | ⟨1, _⟩ => exact Fin.ext k2.symm

/-- An index of the array is in point t's block iff each coordinate is in the block's range. -/
theorem mem_blk3 (t : Fin cfg0.N) (i : S2x1x8.Idx) :
    i ∈ ((cfg0.win 3).blk t).view.set ↔ ∀ a : Fin 3, win0_3.index t a * S1x1x8.size a ≤ (i a).val
      ∧ (i a).val < win0_3.index t a * S1x1x8.size a + S1x1x8.size a := by
  show i ∈ ((View.whole main_v0_0).slice (win0_3.rect t)).set ↔ _
  rw [View.set_slice_whole, Rect.mem_set_unit]
  exact Iff.rfl

/-- The two write-back points cover the array: row h is written at point 256 h + 255. -/
theorem cover3 (i : S2x1x8.Idx) : ∃ t : Fin cfg0.N, (cfg0.win 3).flush t = true ∧ i ∈ ((cfg0.win 3).blk t).view.set := by
  have h0 : (i 0).val < 2 := (i 0).isLt
  have h1 : (i 1).val < 1 := (i 1).isLt
  have h2 : (i 2).val < 8 := (i 2).isLt
  have hN : cfg0.N = 512 := N_0
  refine ⟨⟨256 * (i 0).val + 255, by omega⟩, (flush0_3 _).mpr (by show (256 * (i 0).val + 255) % 256 = 255; omega), ?_⟩
  obtain ⟨e30, e31, e32, e40, e41, e42, -⟩ := idx_facts (⟨256 * (i 0).val + 255, by omega⟩ : Fin cfg0.N)
  have q : (256 * (i 0).val + 255) / 256 = (i 0).val := by omega
  rw [mem_blk3]
  intro a
  match a with
  | ⟨0, _⟩ =>
    show win0_3.index _ (0 : Fin 3) * 1 ≤ (i 0).val ∧ (i 0).val < win0_3.index _ (0 : Fin 3) * 1 + 1
    rw [e30]; show (256 * (i 0).val + 255) / 256 * 1 ≤ (i 0).val ∧ (i 0).val < (256 * (i 0).val + 255) / 256 * 1 + 1
    omega
  | ⟨1, _⟩ =>
    show win0_3.index _ (1 : Fin 3) * 1 ≤ (i 1).val ∧ (i 1).val < win0_3.index _ (1 : Fin 3) * 1 + 1
    rw [e31]; omega
  | ⟨2, _⟩ =>
    show win0_3.index _ (2 : Fin 3) * 8 ≤ (i 2).val ∧ (i 2).val < win0_3.index _ (2 : Fin 3) * 8 + 8
    rw [e32]; omega

/-- The array after the run. -/
theorem final3 (c : Dev nD) : (dats m 0 c).arrAt 3 cfg0.N = G3 m c :=
  (dats m 0 c).arrAt_eq_of_cover 3 (G3 m c) (flushed3_eq m c) cover3

/-- Row h of result array two ends as the second running sum after point 256 h + 255. -/
def G4fun (c : Dev nD) : Vec F S2x1x8 .f32 := fun i =>
  run1 m c (256 * (i 0).val + 255) (by have h2 : (i 0).val < 2 := (i 0).isLt; have hN : cfg0.N = 512 := N_0; omega)
    (ix2 ⟨(i 1).val, (i 1).isLt⟩ ⟨(i 2).val, (i 2).isLt⟩)
abbrev G4 (c : Dev nD) : Buf (Elt F) ((c : Thread nD τ).loc main_v0_1) := G4fun m c

/-- What a write-back point writes is its block of that array. -/
theorem flushed4_eq (c : Dev nD) (t : Fin cfg0.N) (hf : (cfg0.win 4).flush t = true) :
    (dats m 0 c).flushed 4 t = ((cfg0.win 4).blk t).view.read (Elt F) (G4 m c) := by
  have h255 : t.val % 256 = 255 := (flush0_4 t).mp hf
  have hN : t.val < 512 := lt_of_lt_of_eq t.isLt (show cfg0.N = 512 from N_0)
  obtain ⟨e30, e31, e32, e40, e41, e42, -⟩ := idx_facts t
  show (cfg0.win 4).cut (grid0.coords t) ((dats m 0 c).after 4 t) = _
  rw [after0_4, outs_eq]
  dsimp only
  funext y
  show out3 (run1 m c t.val t.isLt) y = G4fun m c (((cfg0.win 4).blk t).view.emb y)
  have hy0 : (y 0).val < 1 := (y 0).isLt
  have hy1 : (y 1).val < 1 := (y 1).isLt
  have k0 : ((((cfg0.win 4).blk t).view.emb y) 0).val = t.val / 256 := by
    show win0_4.index t (0 : Fin 3) * 1 + 1 * (y 0).val = _
    omega
  have k1 : ((((cfg0.win 4).blk t).view.emb y) 1).val = (y 1).val := by
    show win0_4.index t (1 : Fin 3) * 1 + 1 * (y 1).val = _
    omega
  have k2 : ((((cfg0.win 4).blk t).view.emb y) 2).val = (y 2).val := by
    show win0_4.index t (2 : Fin 3) * 8 + 1 * (y 2).val = _
    omega
  unfold G4fun
  rw [run1_congr m c (show 256 * ((((cfg0.win 4).blk t).view.emb y) 0).val + 255 = t.val by rw [k0]; omega) _ t.isLt]
  refine (out3_at _ y).trans ?_
  refine congrArg _ ?_
  funext a
  match a with
  | ⟨0, _⟩ => exact Fin.ext k1.symm
  | ⟨1, _⟩ => exact Fin.ext k2.symm

/-- An index of the array is in point t's block iff each coordinate is in the block's range. -/
theorem mem_blk4 (t : Fin cfg0.N) (i : S2x1x8.Idx) :
    i ∈ ((cfg0.win 4).blk t).view.set ↔ ∀ a : Fin 3, win0_4.index t a * S1x1x8.size a ≤ (i a).val
      ∧ (i a).val < win0_4.index t a * S1x1x8.size a + S1x1x8.size a := by
  show i ∈ ((View.whole main_v0_1).slice (win0_4.rect t)).set ↔ _
  rw [View.set_slice_whole, Rect.mem_set_unit]
  exact Iff.rfl

/-- The two write-back points cover the array: row h is written at point 256 h + 255. -/
theorem cover4 (i : S2x1x8.Idx) : ∃ t : Fin cfg0.N, (cfg0.win 4).flush t = true ∧ i ∈ ((cfg0.win 4).blk t).view.set := by
  have h0 : (i 0).val < 2 := (i 0).isLt
  have h1 : (i 1).val < 1 := (i 1).isLt
  have h2 : (i 2).val < 8 := (i 2).isLt
  have hN : cfg0.N = 512 := N_0
  refine ⟨⟨256 * (i 0).val + 255, by omega⟩, (flush0_4 _).mpr (by show (256 * (i 0).val + 255) % 256 = 255; omega), ?_⟩
  obtain ⟨e30, e31, e32, e40, e41, e42, -⟩ := idx_facts (⟨256 * (i 0).val + 255, by omega⟩ : Fin cfg0.N)
  have q : (256 * (i 0).val + 255) / 256 = (i 0).val := by omega
  rw [mem_blk4]
  intro a
  match a with
  | ⟨0, _⟩ =>
    show win0_4.index _ (0 : Fin 3) * 1 ≤ (i 0).val ∧ (i 0).val < win0_4.index _ (0 : Fin 3) * 1 + 1
    rw [e40]; show (256 * (i 0).val + 255) / 256 * 1 ≤ (i 0).val ∧ (i 0).val < (256 * (i 0).val + 255) / 256 * 1 + 1
    omega
  | ⟨1, _⟩ =>
    show win0_4.index _ (1 : Fin 3) * 1 ≤ (i 1).val ∧ (i 1).val < win0_4.index _ (1 : Fin 3) * 1 + 1
    rw [e41]; omega
  | ⟨2, _⟩ =>
    show win0_4.index _ (2 : Fin 3) * 8 ≤ (i 2).val ∧ (i 2).val < win0_4.index _ (2 : Fin 3) * 8 + 8
    rw [e42]; omega

/-- The array after the run. -/
theorem final4 (c : Dev nD) : (dats m 0 c).arrAt 4 cfg0.N = G4 m c :=
  (dats m 0 c).arrAt_eq_of_cover 4 (G4 m c) (flushed4_eq m c) cover4

end BER.K

end
-- ==== Proof.KTail.lean ====
/-
  The kernel's program after its one region: from the two result arrays to the loss.

  After the region @main sums each 2 × 1 × 8 result array over its first two axes (the two halves of the rows) into
  the eight group error sums and the eight group sizes, and runs the same eighteen host operations as the reference
  from there: the per-group mean where the group is not empty (else zero), the mean of the eight, its distance from
  one half. The frame run states the result buffer as the fold of those operations over the region's exit
  contents, the arrays at what the write-backs left.
-/
import proofs.«429717_j43009802502462_1_alg».proof.Proof.KChain
import Idealize.ShloMosaic.Lib.StableHlo.Run

noncomputable section

namespace BER.K

open Idealize.ShloMosaic Idealize.ShloMosaic.TcCoe Idealize.SL.Sem Idealize.ShloMosaic.ValueIdx
open Idealize.ShloMosaic.Pipeline (Dat)
open Idealize.ShloMosaic.StableHlo
open Cert.KernelIdeal Cert.KernelIdeal.Gen

variable {F : FTy → Type} [FloatOps F]

/-- The last operations as one function of the group sums and the group sizes. -/
def tail (S C : (⟨S8, .f32⟩ : BufTy).Contents (Elt F)) : (⟨S_, .f32⟩ : BufTy).Contents (Elt F) :=
  Host.absf (subf (constant (F := F) S_ .f32 0x3F000000#32) (Host.divf (Host.reduceAdd (select (cmpf (F := F) .ogt C
    (broadcastInDim S8 ![] bcast_S_S8 (constant (F := F) S_ .f32 0x00000000#32)))
    (Host.divf S (maximumf C (broadcastInDim S8 ![] bcast_S_S8 (constant (F := F) S_ .f32 0x3F800000#32))))
    (broadcastInDim S8 ![] bcast_S_S8 (id (constant (F := F) S_ .f32 0x00000000#32)))) (constant (F := F) S_ .f32 0x00000000#32)
    reducesTo_S8_S_d0 h_S_) (constant (F := F) S_ .f32 0x41000000#32)))

/-- A 2 × 1 × 8 result array summed over its first two axes. -/
def halvesSum (A : (⟨S2x1x8, .f32⟩ : BufTy).Contents (Elt F)) : (⟨S8, .f32⟩ : BufTy).Contents (Elt F) :=
  Host.reduceAdd A (constant (F := F) S_ .f32 0x00000000#32) reducesTo_S2x1x8_S8_d0_1 h_S_

-- In the closing comparison one side carries the typed references' casts; only those should unfold.
attribute [local irreducible] Host.reduceAdd

/-- The operations after the region, from any contents of the buffers: the result buffer at the tail of the two sums. -/
theorem tail_after (W : Valuation τ sig (Elt F)) :
    after ([hostOps1, hostOps1_1, hostOps1_2] : List (List (HloOp τ sig (Elt F)))).flatten W (Proc.devRef .tc main_v12)
      = tail (halvesSum (W (Proc.devRef .tc main_v0_0))) (halvesSum (W (Proc.devRef .tc main_v0_1))) := by
  simp only [List.flatten_cons, List.flatten_nil, List.append_nil, hostOps1, hostOps1_1, hostOps1_2, List.cons_append, List.nil_append]
  after_results_simp <;> rfl

variable (m : (ℓ : Loc nD τ sig) → Buf (Elt F) ℓ) (ρ : Dev nD → PrngReg)

/-- The result buffer after the run. -/
theorem tail_value (c : Dev nD) :
    Pipeline.afterTail₀ cfgs (dats m) 0 (V0 m) [hostOps1, hostOps1_1, hostOps1_2] c main_v12
      = tail (halvesSum (G3 m c)) (halvesSum (G4 m c)) := by
  unfold Pipeline.afterTail₀
  rw [tail_after]
  have h3 : Pipeline.withArrays (cfgs 0).spec c (V0 m c) (fun w => (dats m 0 c).arrAt w (cfgs 0).N) (Proc.devRef .tc main_v0_0) = G3 m c :=
    (Pipeline.withArrays_arr spec0 launch0.win.arr_inj c _ _ 3).trans (final3 m c)
  have h4 : Pipeline.withArrays (cfgs 0).spec c (V0 m c) (fun w => (dats m 0 c).arrAt w (cfgs 0).N) (Proc.devRef .tc main_v0_1) = G4 m c :=
    (Pipeline.withArrays_arr spec0 launch0.win.arr_inj c _ _ 4).trans (final4 m c)
  rw [h3, h4]

/-- The kernel's run, read: the result buffer at the tail of the two arrays' sums, the arguments unchanged. -/
theorem run : θ_run defs (onTc (τ := τ) (main (F := F))) ⟨m, fun _ => 0, ρ⟩ fun r => ∀ c : Dev nD,
      r.2.mem ((c.tc : Thread nD τ).loc main_v12) = tail (halvesSum (G3 m c)) (halvesSum (G4 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).2 main_v12 (by decide)).trans (tail_value m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end BER.K

end
-- ==== Proof.LibReduce.lean ====
/-
  Sums of the host's float reduction read at an index.

  The host's `stablehlo.reduce` with an add body is, at the ideal values, the initial value plus the sum of the
  operand over the indices that reduce to the result index (`Ideal.hostReduceAdd`). The library reads that sum
  for one reduced axis and for a result of one element. Here it is read for a rank-three array summed over two
  of its axes into the third: the indices that reduce to a coordinate of the kept axis are exactly the triples
  with that coordinate there, so the sum is the double sum over the two other coordinates.
-/
import Idealize.ShloMosaic.PureOps.Ideal
import Idealize.ShloMosaic.PureOps.Ideal.Laws
import Idealize.ShloMosaic.PureOps.Reduce
import Idealize.ShloMosaic.Lib.ValueIdx
import Mathlib.Algebra.BigOperators.Group.Finset.Defs
import Mathlib.Data.Fintype.BigOperators

noncomputable section

namespace Cert.LibReduce

open Idealize.ShloMosaic Idealize.ShloMosaic.ValueIdx

/-- A sum over a rank-one index set is the sum over its coordinate. -/
theorem sum_idx1 {M : Type*} [AddCommMonoid M] {n : Nat} (f : (⟨1, ![n]⟩ : Shape).Idx → M) :
    ∑ i, f i = ∑ a : Fin n, f (ix1 a) := by
  refine Fintype.sum_equiv ⟨fun i => i 0, fun a => ix1 a, fun i => (eq_ix1 i).symm, fun _ => rfl⟩ _ _ fun i => ?_
  exact congrArg f (eq_ix1 i)

/-- The host's float sum of a vector into a scalar: the initial value plus the sum over the coordinate. -/
theorem hostReduceAdd_all1 {n : Nat} (h : (⟨1, ![n]⟩ : Shape).ReducesTo [0] ⟨0, ![]⟩)
    (x : (⟨1, ![n]⟩ : Shape).Idx → EReal) (init : EReal) (j : (⟨0, ![]⟩ : Shape).Idx) :
    Ideal.hostReduceAdd h x init j = init + ∑ a : Fin n, x (ix1 a) := by
  rw [Ideal.hostReduceAdd_total h (fun b => b.elim0), sum_idx1]

/-- The host's float sum over the two TRAILING axes of a rank-three array: at `b`, the initial value plus the
    double sum over the two trailing coordinates. The indices that reduce to `b` are exactly the `(b, i, j)`. -/
theorem hostReduceAdd_tail2 {n0 n1 n2 : Nat}
    (h : (⟨3, ![n0, n1, n2]⟩ : Shape).ReducesTo [1, 2] ⟨1, ![n0]⟩)
    (x : (⟨3, ![n0, n1, n2]⟩ : Shape).Idx → EReal) (init : EReal) (b : Fin n0) :
    Ideal.hostReduceAdd h x init (ix1 b) = init + ∑ i : Fin n1, ∑ j : Fin n2, x (ix3 b i j) := by
  unfold Ideal.hostReduceAdd
  refine congrArg (init + ·) ?_
  rw [← Fintype.sum_prod_type' (f := fun i j => x (ix3 b i j))]
  have hd : ∀ idx : (⟨3, ![n0, n1, n2]⟩ : Shape).Idx, ((h.drop idx) 0 : Nat) = idx 0 := fun idx => rfl
  refine Finset.sum_nbij' (fun idx => (idx 1, idx 2)) (fun p => ix3 b p.1 p.2) ?_ ?_ ?_ ?_ ?_
  · intro idx _; exact Finset.mem_univ _
  · intro p _
    rw [Finset.mem_filter]
    refine ⟨Finset.mem_univ _, funext fun a => Fin.ext ?_⟩
    match a with
    | ⟨0, _⟩ => exact hd _
  · intro idx hidx
    rw [Finset.mem_filter] at hidx
    have h0 : (idx 0 : Nat) = b.val := by rw [← hd idx, hidx.2]; rfl
    refine funext fun a => Fin.ext ?_
    match a with
    | ⟨0, _⟩ => exact h0.symm
    | ⟨1, _⟩ => rfl
    | ⟨2, _⟩ => rfl
  · intro p _; rfl
  · intro idx hidx
    rw [Finset.mem_filter] at hidx
    have h0 : (idx 0 : Nat) = b.val := by rw [← hd idx, hidx.2]; rfl
    refine congrArg x (funext fun a => Fin.ext ?_)
    match a with
    | ⟨0, _⟩ => exact h0
    | ⟨1, _⟩ => rfl
    | ⟨2, _⟩ => rfl

/-- The host's float sum over the two LEADING axes of a rank-three array: at `l`, the initial value plus the
    double sum over the two leading coordinates. The indices that reduce to `l` are exactly the `(i, j, l)`. -/
theorem hostReduceAdd_lead2 {n0 n1 n2 : Nat}
    (h : (⟨3, ![n0, n1, n2]⟩ : Shape).ReducesTo [0, 1] ⟨1, ![n2]⟩)
    (x : (⟨3, ![n0, n1, n2]⟩ : Shape).Idx → EReal) (init : EReal) (l : Fin n2) :
    Ideal.hostReduceAdd h x init (ix1 l) = init + ∑ i : Fin n0, ∑ j : Fin n1, x (ix3 i j l) := by
  unfold Ideal.hostReduceAdd
  refine congrArg (init + ·) ?_
  rw [← Fintype.sum_prod_type' (f := fun i j => x (ix3 i j l))]
  have hd : ∀ idx : (⟨3, ![n0, n1, n2]⟩ : Shape).Idx, ((h.drop idx) 0 : Nat) = idx 2 := fun idx => rfl
  refine Finset.sum_nbij' (fun idx => (idx 0, idx 1)) (fun p => ix3 p.1 p.2 l) ?_ ?_ ?_ ?_ ?_
  · intro idx _; exact Finset.mem_univ _
  · intro p _
    rw [Finset.mem_filter]
    refine ⟨Finset.mem_univ _, funext fun a => Fin.ext ?_⟩
    match a with
    | ⟨0, _⟩ => exact hd _
  · intro idx hidx
    rw [Finset.mem_filter] at hidx
    have h2 : (idx 2 : Nat) = l.val := by rw [← hd idx, hidx.2]; rfl
    refine funext fun a => Fin.ext ?_
    match a with
    | ⟨0, _⟩ => rfl
    | ⟨1, _⟩ => rfl
    | ⟨2, _⟩ => exact h2.symm
  · intro p _; rfl
  · intro idx hidx
    rw [Finset.mem_filter] at hidx
    have h2 : (idx 2 : Nat) = l.val := by rw [← hd idx, hidx.2]; rfl
    refine congrArg x (funext fun a => Fin.ext ?_)
    match a with
    | ⟨0, _⟩ => rfl
    | ⟨1, _⟩ => rfl
    | ⟨2, _⟩ => exact h2

end Cert.LibReduce

end
-- ==== Proof.KValue.lean ====
/-
  The kernel's group sums and group sizes, entry by entry, on the extended reals.

  Point t's three blocks are rows 8192 t, …, 8192 t + 8191 of the three argument arrays. The running sums restart at
  the points 0 and 256, so after the points 255 and 511 they hold the sums over the blocks 0–255 and 256–511; the host's
  sum over the first two axes of each result array adds the two halves: all 512 blocks, that is all 4194304 rows.
  Entry k of the first is zero + Σ_j error j · [group j = k], of the second zero + Σ_j [group j = k].
-/
import proofs.«429717_j43009802502462_1_alg».proof.Proof.KTail
import proofs.«429717_j43009802502462_1_alg».proof.Proof.LibReduce

noncomputable section

namespace BER.K

open Idealize.ShloMosaic Idealize.ShloMosaic.TcCoe Idealize.SL.Sem Idealize.ShloMosaic.ValueIdx
open Cert.KernelIdeal Cert.KernelIdeal.Gen
open scoped BigOperators

/-- A running sum over the blocks 0, …, N − 1 that restarts (from zero) at every block whose number is a multiple of 256
    holds, after block n, the sum of the blocks from the last restart up to n. -/
theorem running_lt {M : Type*} [AddCommMonoid M] (N : ℕ) (B acc : ℕ → M) (h0 : acc 0 = 0 + B 0)
    (hreset : ∀ n, n + 1 < N → (n + 1) % 256 = 0 → acc (n + 1) = 0 + B (n + 1))
    (hstep : ∀ n, n + 1 < N → (n + 1) % 256 ≠ 0 → acc (n + 1) = acc n + B (n + 1)) :
    ∀ n, n < N → acc n = ∑ b ∈ Finset.Ico (256 * (n / 256)) (n + 1), B b
  | 0, _ => by rw [h0, zero_add]; simp
  | n + 1, hn => by
    by_cases hm : (n + 1) % 256 = 0
    · rw [hreset n hn hm, zero_add]
      have : 256 * ((n + 1) / 256) = n + 1 := by omega
      rw [this, Finset.sum_Ico_succ_top (Nat.le_refl _), Finset.Ico_self, Finset.sum_empty, zero_add]
    · rw [hstep n hn hm, running_lt N B acc h0 hreset hstep n (by omega)]
      have hq : (n + 1) / 256 = n / 256 := by omega
      rw [hq]
      exact (Finset.sum_Ico_succ_top (show 256 * (n / 256) ≤ n + 1 by omega) B).symm

/-- The two halves are all 512 blocks. -/
theorem two_halves {M : Type*} [AddCommMonoid M] (B : ℕ → M) :
    (∑ b ∈ Finset.Ico 0 256, B b) + (∑ b ∈ Finset.Ico 256 512, B b) = ∑ b : Fin 512, B b.val := by
  rw [Finset.sum_Ico_consecutive B (by norm_num) (by norm_num), ← Finset.range_eq_Ico, Finset.sum_range]

variable (m : (ℓ : Loc nD τ sig) → Buf (Elt Ideal) ℓ)

/-! ## The argument arrays, and a point's blocks as their rows -/

abbrev X (c : Dev nD) : FVec Ideal S4194304x16 .f32 := m ((c.tc : Thread nD τ).loc main_arg0)
abbrev T (c : Dev nD) : IVec S4194304 32 := m ((c.tc : Thread nD τ).loc main_arg1)
abbrev G (c : Dev nD) : IVec S4194304 32 := m ((c.tc : Thread nD τ).loc main_arg2)

theorem row_lt (t : Fin cfg0.N) (r : Fin 8192) : 8192 * t.val + r.val < 4194304 := by
  have : t.val < 512 := lt_of_lt_of_eq t.isLt N_0
  have := r.isLt
  omega

theorem xb0_apply (c : Dev nD) (t : Fin cfg0.N) (r : Fin 8192) (q : Fin 16) :
    xb0 m c t (ix2 r q) = X m c (ix2 ⟨8192 * t.val + r.val, row_lt t r⟩ q) := by
  obtain ⟨-, -, -, -, -, -, e00, e01, -, -⟩ := idx_facts t
  show ((cfg0.win 0).blk t).view.read (Elt Ideal) (V m c (Pipeline.arrRef spec0 0)) (ix2 r q) = _
  rw [View.read_apply]
  show V m c main_arg0 _ = m ((c.tc : Thread nD τ).loc main_arg0) _
  refine congrArg (m ((c.tc : Thread nD τ).loc main_arg0)) (funext fun a => Fin.ext ?_)
  match a with
  | ⟨0, _⟩ => show win0_0.index t (0 : Fin 2) * 8192 + 1 * r.val = 8192 * t.val + r.val; rw [e00]; omega
  | ⟨1, _⟩ => show win0_0.index t (1 : Fin 2) * 16 + 1 * q.val = q.val; rw [e01]; omega

theorem xb1_apply (c : Dev nD) (t : Fin cfg0.N) (r : Fin 8192) :
    xb1 m c t (ix1 r) = T m c (ix1 ⟨8192 * t.val + r.val, row_lt t r⟩) := by
  obtain ⟨-, -, -, -, -, -, -, -, e1, -⟩ := idx_facts t
  show ((cfg0.win 1).blk t).view.read (Elt Ideal) (V m c (Pipeline.arrRef spec0 1)) (ix1 r) = _
  rw [View.read_apply]
  show V m c main_arg1 _ = m ((c.tc : Thread nD τ).loc main_arg1) _
  refine congrArg (m ((c.tc : Thread nD τ).loc main_arg1)) (funext fun a => Fin.ext ?_)
  match a with
  | ⟨0, _⟩ => show win0_1.index t (0 : Fin 1) * 8192 + 1 * r.val = 8192 * t.val + r.val; rw [e1]; omega

theorem xb2_apply (c : Dev nD) (t : Fin cfg0.N) (r : Fin 8192) :
    xb2 m c t (ix1 r) = G m c (ix1 ⟨8192 * t.val + r.val, row_lt t r⟩) := by
  obtain ⟨-, -, -, -, -, -, -, -, -, e2⟩ := idx_facts t
  show ((cfg0.win 2).blk t).view.read (Elt Ideal) (V m c (Pipeline.arrRef spec0 2)) (ix1 r) = _
  rw [View.read_apply]
  show V m c main_arg2 _ = m ((c.tc : Thread nD τ).loc main_arg2) _
  refine congrArg (m ((c.tc : Thread nD τ).loc main_arg2)) (funext fun a => Fin.ext ?_)
  match a with
  | ⟨0, _⟩ => show win0_2.index t (0 : Fin 1) * 8192 + 1 * r.val = 8192 * t.val + r.val; rw [e2]; omega

/-- A block's row error is the global row's. -/
theorem errRow_block (c : Dev nD) (t : Fin cfg0.N) (r : Fin 8192) :
    BER.errRow (xb0 m c t) (xb1 m c t) r = BER.errRow (X m c) (T m c) ⟨8192 * t.val + r.val, row_lt t r⟩ := by
  unfold BER.errRow BER.selRow
  rw [xb1_apply]
  refine congrArg (fun z => BER.absE (BER.one - z)) (Finset.sum_congr rfl fun q _ => ?_)
  rw [xb0_apply]

/-- Block t's contribution to group k's error sum, as a sum over its rows of the global arrays. -/
theorem blockSum_rows (c : Dev nD) (t : Fin cfg0.N) (k : Fin 8) :
    blockSum (F := Ideal) (xb0 m c t) (xb1 m c t) (xb2 m c t) (ix1 k)
      = ∑ r : Fin 8192, BER.errRow (X m c) (T m c) ⟨8192 * t.val + r.val, row_lt t r⟩
          * BER.hot (G m c (ix1 ⟨8192 * t.val + r.val, row_lt t r⟩)) k.val := by
  rw [blockSum_apply]
  unfold BER.sumRows
  refine Finset.sum_congr rfl fun r _ => ?_
  rw [errRow_block, xb2_apply]

/-- Block t's contribution to group k's size. -/
theorem blockCnt_rows (c : Dev nD) (t : Fin cfg0.N) (k : Fin 8) :
    blockCnt (F := Ideal) (xb2 m c t) (ix1 k)
      = ∑ r : Fin 8192, BER.hot (G m c (ix1 ⟨8192 * t.val + r.val, row_lt t r⟩)) k.val := by
  rw [blockCnt_apply]
  unfold BER.cntRows
  refine Finset.sum_congr rfl fun r _ => ?_
  rw [xb2_apply]

/-! ## One more block into a running sum, read at an entry -/

theorem hN {n : ℕ} (h : n < 512) : n < cfg0.N := lt_of_lt_of_eq h N_0.symm

theorem upd0_apply (x0 : FVec Ideal S8192x16 .f32) (x1 x2 : IVec S8192 32) (s : FVec Ideal S1x8 .f32) (k : Fin 8) :
    upd0 (F := Ideal) x0 x1 x2 s (ix2 0 k) = s (ix2 0 k) + blockSum (F := Ideal) x0 x1 x2 (ix1 k) := by
  unfold upd0
  rw [addf_apply, shapeCast_a_1a_apply]

theorem upd1_apply (x2 : IVec S8192 32) (s : FVec Ideal S1x8 .f32) (k : Fin 8) :
    upd1 (F := Ideal) x2 s (ix2 0 k) = s (ix2 0 k) + blockCnt (F := Ideal) x2 (ix1 k) := by
  unfold upd1
  rw [addf_apply, shapeCast_a_1a_apply]

theorem z8_apply (k : Fin 8) : z8 (F := Ideal) (ix2 0 k) = 0 := Ideal.ofBits_zero_f32

/-! ## The group error sums -/

/-- Block n's contribution to entry k (zero past the grid). -/
def Bs (c : Dev nD) (k : Fin 8) (n : ℕ) : EReal :=
  if h : n < 512 then blockSum (F := Ideal) (xb0 m c ⟨n, hN h⟩) (xb1 m c ⟨n, hN h⟩) (xb2 m c ⟨n, hN h⟩) (ix1 k) else 0

/-- Entry k of the running sum after point n (zero past the grid). -/
def As (c : Dev nD) (k : Fin 8) (n : ℕ) : EReal :=
  if h : n < 512 then run0 m c n (hN h) (ix2 0 k) else 0

theorem As_closed (c : Dev nD) (k : Fin 8) (n : ℕ) (hn : n < 512) :
    As m c k n = ∑ b ∈ Finset.Ico (256 * (n / 256)) (n + 1), Bs m c k b := by
  refine running_lt 512 (Bs m c k) (As m c k) ?_ ?_ ?_ n hn
  · unfold As Bs
    rw [dif_pos (by norm_num), dif_pos (by norm_num)]
    show run0 m c 0 _ (ix2 0 k) = _
    rw [run0, upd0_apply, z8_apply]
  · intro n hn hm
    unfold As Bs
    rw [dif_pos hn, dif_pos hn]
    show run0 m c (n + 1) _ (ix2 0 k) = _
    rw [run0, if_pos hm, upd0_apply, z8_apply]
  · intro n hn hm
    unfold As Bs
    rw [dif_pos hn, dif_pos (show n < 512 by omega), dif_pos hn]
    show run0 m c (n + 1) _ (ix2 0 k) = _
    rw [run0, if_neg hm, upd0_apply]

/-- Entry k of the host's sum over the two halves: all the rows. -/
theorem halves_s (c : Dev nD) (k : Fin 8) :
    halvesSum (F := Ideal) (G3 m c) (ix1 k) = BER.zero + BER.sumRows (X m c) (T m c) (G m c) k := by
  unfold halvesSum
  show Ideal.hostReduceAdd reducesTo_S2x1x8_S8_d0_1 (G3 m c) (Ideal.ofBits .f32 0x00000000#32) (ix1 k) = _
  rw [Cert.LibReduce.hostReduceAdd_lead2]
  refine congrArg₂ (· + ·) rfl ?_
  rw [Fin.sum_univ_two, Fin.sum_univ_one, Fin.sum_univ_one]
  have g0 : G3 m c (ix3 (0 : Fin 2) (0 : Fin 1) k) = As m c k 255 := by
    unfold As; rw [dif_pos (by norm_num)]; rfl
  have g1 : G3 m c (ix3 (1 : Fin 2) (0 : Fin 1) k) = As m c k 511 := by
    unfold As; rw [dif_pos (by norm_num)]; rfl
  rw [g0, g1, As_closed m c k 255 (by norm_num), As_closed m c k 511 (by norm_num)]
  show (∑ b ∈ Finset.Ico 0 256, Bs m c k b) + (∑ b ∈ Finset.Ico 256 512, Bs m c k b) = _
  rw [two_halves]
  unfold BER.sumRows
  rw [← BER.sum_blocks_rows]
  refine Finset.sum_congr rfl fun b _ => ?_
  unfold Bs
  rw [dif_pos b.isLt]
  exact blockSum_rows m c ⟨b.val, hN b.isLt⟩ k

/-! ## The group sizes -/

/-- Block n's contribution to entry k (zero past the grid). -/
def Bc (c : Dev nD) (k : Fin 8) (n : ℕ) : EReal :=
  if h : n < 512 then blockCnt (F := Ideal) (xb2 m c ⟨n, hN h⟩) (ix1 k) else 0

/-- Entry k of the running sum after point n (zero past the grid). -/
def Ac (c : Dev nD) (k : Fin 8) (n : ℕ) : EReal :=
  if h : n < 512 then run1 m c n (hN h) (ix2 0 k) else 0

theorem Ac_closed (c : Dev nD) (k : Fin 8) (n : ℕ) (hn : n < 512) :
    Ac m c k n = ∑ b ∈ Finset.Ico (256 * (n / 256)) (n + 1), Bc m c k b := by
  refine running_lt 512 (Bc m c k) (Ac m c k) ?_ ?_ ?_ n hn
  · unfold Ac Bc
    rw [dif_pos (by norm_num), dif_pos (by norm_num)]
    show run1 m c 0 _ (ix2 0 k) = _
    rw [run1, upd1_apply, z8_apply]
  · intro n hn hm
    unfold Ac Bc
    rw [dif_pos hn, dif_pos hn]
    show run1 m c (n + 1) _ (ix2 0 k) = _
    rw [run1, if_pos hm, upd1_apply, z8_apply]
  · intro n hn hm
    unfold Ac Bc
    rw [dif_pos hn, dif_pos (show n < 512 by omega), dif_pos hn]
    show run1 m c (n + 1) _ (ix2 0 k) = _
    rw [run1, if_neg hm, upd1_apply]

/-- Entry k of the host's sum over the two halves: all the rows. -/
theorem halves_c (c : Dev nD) (k : Fin 8) :
    halvesSum (F := Ideal) (G4 m c) (ix1 k) = BER.zero + BER.cntRows (G m c) k := by
  unfold halvesSum
  show Ideal.hostReduceAdd reducesTo_S2x1x8_S8_d0_1 (G4 m c) (Ideal.ofBits .f32 0x00000000#32) (ix1 k) = _
  rw [Cert.LibReduce.hostReduceAdd_lead2]
  refine congrArg₂ (· + ·) rfl ?_
  rw [Fin.sum_univ_two, Fin.sum_univ_one, Fin.sum_univ_one]
  have g0 : G4 m c (ix3 (0 : Fin 2) (0 : Fin 1) k) = Ac m c k 255 := by
    unfold Ac; rw [dif_pos (by norm_num)]; rfl
  have g1 : G4 m c (ix3 (1 : Fin 2) (0 : Fin 1) k) = Ac m c k 511 := by
    unfold Ac; rw [dif_pos (by norm_num)]; rfl
  rw [g0, g1, Ac_closed m c k 255 (by norm_num), Ac_closed m c k 511 (by norm_num)]
  show (∑ b ∈ Finset.Ico 0 256, Bc m c k b) + (∑ b ∈ Finset.Ico 256 512, Bc m c k b) = _
  rw [two_halves]
  unfold BER.cntRows
  rw [← BER.sum_blocks_rows]
  refine Finset.sum_congr rfl fun b _ => ?_
  unfold Bc
  rw [dif_pos b.isLt]
  exact blockCnt_rows m c ⟨b.val, hN b.isLt⟩ k

end BER.K

end
-- ==== Proof.RefStages.lean ====
/-
  The reference's run, read back in six stretches.

  The reference's @main is a straight line of 56 host operations. What a buffer holds after them is the fold of the
  operations' results over the launch contents. The fold is cut at five places — after the label is normalised and
  reshaped (9 operations), after the in-range mask (10), after the gather and its select (4), after the rows'
  errors (5), after the two scatters (10) — and the last 18 operations are the tail from the group sums and sizes to
  the loss. Each stretch is read at an ARBITRARY valuation of the buffers it starts from, so each comparison is a
  few operations deep; the stretches then chain, the buffers a later stretch reads being kept by the ones between.

    the rows' errors   e = |1 − reshape (select inrange (gather x idx) nan)|
    group sums         S = scatter-add (zeros, group, e)        group sizes   C = scatter-add (zeros, group, ones)
    result             tail S C
-/
import proofs.«429717_j43009802502462_1_alg».proof.Proof.RefRead
import Idealize.ShloMosaic.Lib.Pipeline.Frame
import Idealize.ShloMosaic.Lib.StableHlo.Run

noncomputable section

namespace BER.R

open Cert.ReferenceIdeal Cert.ReferenceIdeal.Gen Idealize.ShloMosaic Idealize.ShloMosaic.TcCoe Idealize.SL.Sem
open Idealize.ShloMosaic.StableHlo
open Cert.ReferenceIdeal.ValueP (ops main_eq scopedRefs_eq scopedSems_eq ops_sub)
open Cert.ReferenceIdeal.ReadP

variable {F : FTy → Type} [FloatOps F]

/-- The last 18 operations as one function of the group sums and the group sizes: the per-group mean where the group
    is not empty (else zero), the mean of the eight, its distance from one half. -/
def tail (S C : (⟨S8, .f32⟩ : BufTy).Contents (Elt F)) : (⟨S_, .f32⟩ : BufTy).Contents (Elt F) :=
  Host.absf (subf (val_main_cst_8 (F := F)) (Host.divf (Host.reduceAdd (select (cmpf (F := F) .ogt C (val_main_v13 (F := F)))
    (Host.divf S (maximumf C (val_main_v15 (F := F)))) (val_main_call1_v1 (F := F))) (val_main_cst_6 (F := F)) reducesTo_S8_S_d0 h_S_)
    (val_main_cst_7 (F := F))))

/-- The reference's result stage is the tail of its two scatter stages. -/
theorem val_main_v22_tail (x0 : (⟨S4194304x16, .f32⟩ : BufTy).Contents (Elt F)) (x1 x2 : (⟨S4194304, .i32⟩ : BufTy).Contents (Elt F)) :
    val_main_v22 (F := F) x0 x1 x2 = tail (val_main_v8 (F := F) x0 x1 x2) (val_main_v12 (F := F) x2) := rfl

/-- Operations a, …, a + n − 1 of @main. -/
abbrev seg (a n : Nat) : List (HloOp τ sig (Elt F)) := ((ops (F := F)).drop a).take n

theorem ops_split : (ops (F := F)) = seg 0 9 ++ (seg 9 10 ++ (seg 19 4 ++ (seg 23 5 ++ (seg 28 10 ++ seg 38 18)))) := rfl

-- In a stretch's closing comparison one side carries the typed references' casts; only those should unfold, never a
-- host operation that is a fold over a full-size array.
attribute [local irreducible] Host.reduce Host.gather Host.scatterAdd Host.reduceAdd

section Stretches

variable (W : Valuation τ sig (Elt F))

/-- A valuation read at a TensorCore reference, at the reference's own contents type. -/
abbrev rd (r : Ref sig .tc) : r.ty.Contents (Elt F) := W (Proc.devRef .tc r)

/-! ### Stretch 1: the label, normalised and reshaped -/

theorem s1_v5 : after (seg 0 9) W (Proc.devRef .tc main_call0_v5) = val_main_call0_v5 (F := F) (rd W main_arg1) := by
  simp only [seg, ops, List.drop, List.take]
  after_results_simp <;> rfl
theorem s1_arg0 : after (seg 0 9) W (Proc.devRef .tc main_arg0) = W (Proc.devRef .tc main_arg0) := by
  simp only [seg, ops, List.drop, List.take]
  after_results_simp <;> rfl
theorem s1_arg2 : after (seg 0 9) W (Proc.devRef .tc main_arg2) = W (Proc.devRef .tc main_arg2) := by
  simp only [seg, ops, List.drop, List.take]
  after_results_simp <;> rfl

/-! ### Stretch 2: the in-range mask of the normalised label -/

theorem s2_v12 : after (seg 9 10) W (Proc.devRef .tc main_call0_v12)
    = Host.reduce IntOp.andi (andi (cmpi .sge (rd W main_call0_v5) (val_main_call0_v6 (F := F)))
        (cmpi .sle (rd W main_call0_v5) (val_main_call0_v9 (F := F)))) (val_main_call0_c_3 (F := F))
        reducesTo_S4194304x1x1_S4194304x1_d2 h_S_ := by
  simp only [seg, ops, List.drop, List.take]
  after_results_simp <;> rfl
theorem s2_v5 : after (seg 9 10) W (Proc.devRef .tc main_call0_v5) = W (Proc.devRef .tc main_call0_v5) := by
  simp only [seg, ops, List.drop, List.take]
  after_results_simp <;> rfl
theorem s2_arg0 : after (seg 9 10) W (Proc.devRef .tc main_arg0) = W (Proc.devRef .tc main_arg0) := by
  simp only [seg, ops, List.drop, List.take]
  after_results_simp <;> rfl
theorem s2_arg2 : after (seg 9 10) W (Proc.devRef .tc main_arg2) = W (Proc.devRef .tc main_arg2) := by
  simp only [seg, ops, List.drop, List.take]
  after_results_simp <;> rfl

/-! ### Stretch 3: the gather, and the select that blanks the out-of-range rows -/

theorem s3_v1 : after (seg 19 4) W (Proc.devRef .tc main_v1)
    = select (rd W main_call0_v12) (Host.gather gather_S4194304x16_S4194304x1x1_S4194304x1_n_1_0_0_1_2_11 (rd W main_arg0) (rd W main_call0_v5))
        (val_main_call0_v14 (F := F)) := by
  simp only [seg, ops, List.drop, List.take]
  after_results_simp <;> rfl
theorem s3_arg2 : after (seg 19 4) W (Proc.devRef .tc main_arg2) = W (Proc.devRef .tc main_arg2) := by
  simp only [seg, ops, List.drop, List.take]
  after_results_simp <;> rfl

/-! ### Stretch 4: the rows' errors -/

theorem s4_v5 : after (seg 23 5) W (Proc.devRef .tc main_v5)
    = Host.absf (subf (val_main_v3 (F := F)) (shapeCast _ (rd W main_v1) shapeCasts_S4194304x1_S4194304)) := by
  simp only [seg, ops, List.drop, List.take]
  after_results_simp <;> rfl
theorem s4_arg2 : after (seg 23 5) W (Proc.devRef .tc main_arg2) = W (Proc.devRef .tc main_arg2) := by
  simp only [seg, ops, List.drop, List.take]
  after_results_simp <;> rfl

/-! ### Stretch 5: the two scatters -/

theorem s5_v8 : after (seg 28 10) W (Proc.devRef .tc main_v8)
    = Host.scatterAdd scatter_S8_S4194304x1_S4194304_n_0_0_1 (val_main_v6 (F := F)) (val_main_v7 (F := F) (rd W main_arg2)) (rd W main_v5) := by
  simp only [seg, ops, List.drop, List.take]
  after_results_simp <;> rfl
theorem s5_v12 : after (seg 28 10) W (Proc.devRef .tc main_v12) = val_main_v12 (F := F) (rd W main_arg2) := by
  simp only [seg, ops, List.drop, List.take]
  after_results_simp <;> rfl

/-! ### Stretch 6: the tail -/

theorem s6_v22 : after (seg 38 18) W (Proc.devRef .tc main_v22) = tail (rd W main_v8) (rd W main_v12) := by
  simp only [seg, ops, List.drop, List.take]
  after_results_simp <;> rfl

end Stretches

/-! ## The stretches chained -/

theorem after_ops (V : Valuation τ sig (Elt F)) :
    after (ops (F := F)) V
      = after (seg 38 18) (after (seg 28 10) (after (seg 23 5) (after (seg 19 4) (after (seg 9 10) (after (seg 0 9) V))))) := by
  conv_lhs => rw [ops_split]
  simp only [StableHlo.after_append]

/-- After all 56 operations the result buffer holds the reference's result stage of the three argument arrays. -/
theorem result (V : Valuation τ sig (Elt F)) :
    after (ops (F := F)) V (Proc.devRef .tc main_v22)
      = val_main_v22 (F := F) (rd V main_arg0) (rd V main_arg1) (rd V main_arg2) := by
  rw [after_ops]
  generalize hW1 : after (seg 0 9) V = W1
  have a5 : rd W1 main_call0_v5 = val_main_call0_v5 (F := F) (rd V main_arg1) := by rw [← hW1]; exact s1_v5 V
  have a0 : rd W1 main_arg0 = rd V main_arg0 := by rw [← hW1]; exact s1_arg0 V
  have a2 : rd W1 main_arg2 = rd V main_arg2 := by rw [← hW1]; exact s1_arg2 V
  generalize hW2 : after (seg 9 10) W1 = W2
  have b12 : rd W2 main_call0_v12 = val_main_call0_v12 (F := F) (rd V main_arg1) := by
    rw [← hW2]; exact (s2_v12 W1).trans (by rw [a5]; rfl)
  have b5 : rd W2 main_call0_v5 = val_main_call0_v5 (F := F) (rd V main_arg1) := by
    rw [← hW2]; exact (s2_v5 W1).trans a5
  have b0 : rd W2 main_arg0 = rd V main_arg0 := by rw [← hW2]; exact (s2_arg0 W1).trans a0
  have b2 : rd W2 main_arg2 = rd V main_arg2 := by rw [← hW2]; exact (s2_arg2 W1).trans a2
  generalize hW3 : after (seg 19 4) W2 = W3
  have c1 : rd W3 main_v1 = val_main_v1 (F := F) (rd V main_arg0) (rd V main_arg1) := by
    rw [← hW3]; exact (s3_v1 W2).trans (by rw [b12, b0, b5]; rfl)
  have c2 : rd W3 main_arg2 = rd V main_arg2 := by rw [← hW3]; exact (s3_arg2 W2).trans b2
  generalize hW4 : after (seg 23 5) W3 = W4
  have d5 : rd W4 main_v5 = val_main_v5 (F := F) (rd V main_arg0) (rd V main_arg1) := by
    rw [← hW4]; exact (s4_v5 W3).trans (by rw [c1]; rfl)
  have d2 : rd W4 main_arg2 = rd V main_arg2 := by rw [← hW4]; exact (s4_arg2 W3).trans c2
  generalize hW5 : after (seg 28 10) W4 = W5
  have e8 : rd W5 main_v8 = val_main_v8 (F := F) (rd V main_arg0) (rd V main_arg1) (rd V main_arg2) := by
    rw [← hW5]; exact (s5_v8 W4).trans (by rw [d2, d5]; rfl)
  have e12 : rd W5 main_v12 = val_main_v12 (F := F) (rd V main_arg2) := by
    rw [← hW5]; exact (s5_v12 W4).trans (by rw [d2])
  rw [s6_v22 W5, e8, e12, val_main_v22_tail]

/-- No operation writes an argument array. -/
theorem kept_arg0 (V : Valuation τ sig (Elt F)) : after (ops (F := F)) V (Proc.devRef .tc main_arg0) = V (Proc.devRef .tc main_arg0) := by
  after_results_simp <;> rfl
theorem kept_arg1 (V : Valuation τ sig (Elt F)) : after (ops (F := F)) V (Proc.devRef .tc main_arg1) = V (Proc.devRef .tc main_arg1) := by
  after_results_simp <;> rfl
theorem kept_arg2 (V : Valuation τ sig (Elt F)) : after (ops (F := F)) V (Proc.devRef .tc main_arg2) = V (Proc.devRef .tc main_arg2) := by
  after_results_simp <;> rfl

/-! ## The run -/

/-- On every device, for any float values, from any memory with zero counters: every weakly fair execution of the
    reference's @main terminates with the result buffer at the result stage of the argument arrays' launch contents,
    and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v22)
        = val_main_v22 (F := F) (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v22).trans (result _), (h c main_arg0).trans (kept_arg0 _),
      (h c main_arg1).trans (kept_arg1 _), (h c main_arg2).trans (kept_arg2 _)⟩)
    (run_seq scopedRefs_eq scopedSems_eq defs main (fun _ => ops) main_eq (fun _ => ops_sub) m ρ)

end BER.R

end
-- ==== Proof.LibScatterRows.lean ====
/-
  The host's accumulating scatter of scalar updates into a rank-1 table, at the ideal values, read at one entry.

  M updates are aimed into a table of N entries, update e by one 32-bit index word. The start of an update's
  (one-element) window is its word read as a signed integer and is not clamped; an update whose word is no entry
  number lands nowhere and is dropped. So entry i of the result is entry i of the operand plus the sum of the
  updates whose word, read signed, equals i.
-/
import Idealize.ShloMosaic.PureOps.Ideal
import Idealize.ShloMosaic.PureOps.Contract
import Idealize.ShloMosaic.Lib.ValueIdx

noncomputable section

namespace Cert.Lib.ScatterRows

open Idealize.ShloMosaic Idealize.ShloMosaic.ValueIdx
open scoped BigOperators

/-- A rank-1 index set is its one coordinate range … -/
def idxEquiv1 {n : ℕ} : (⟨1, ![n]⟩ : Shape).Idx ≃ Fin n where
  toFun i := i 0
  invFun p := ix1 p
  left_inv i := (eq_ix1 i).symm
  right_inv _ := rfl

/-- … so a sum over it is the sum over the coordinate. -/
theorem sum_idx1 {A : Type*} [AddCommMonoid A] {n : ℕ} (f : (⟨1, ![n]⟩ : Shape).Idx → A) :
    ∑ i, f i = ∑ a : Fin n, f (ix1 a) := by
  rw [← Equiv.sum_comp (idxEquiv1 (n := n)).symm f]
  rfl

/-- Scalar updates into a rank-1 table: update e's window starts at its index word read signed, and it has no window
    coordinate. -/
theorem start_window {N M : ℕ} (d : ScatterDims ⟨1, ![N]⟩ ⟨2, ![M, 1]⟩ ⟨1, ![M]⟩)
    (hupd : d.updateWindowDims = []) (hins : d.insertedWindowDims = [0])
    (hsd : d.scatterDimsToOperandDims = [0]) (hiv : d.indexVectorDim = 1)
    (idx : IVec ⟨2, ![M, 1]⟩ 32) (e : Fin M) :
    d.start (ix1 e) idx 0 = (idx (ix2 e 0)).toInt ∧ d.window (ix1 e) 0 = 0 := by
  obtain ⟨uw, iw, sd, iv, wf⟩ := d
  dsimp only at hupd hins hsd hiv
  subst hupd hins hsd hiv
  constructor
  · unfold ScatterDims.start
    rw [dif_pos (List.mem_singleton.mpr rfl)]
    refine congrArg (fun z => (idx z).toInt) ?_
    funext b
    apply Fin.ext
    match b with
    | ⟨0, _⟩ => rfl
    | ⟨1, _⟩ => rfl
  · unfold ScatterDims.window
    rw [dif_neg (by simp [ScatterDims.sKept, Shape.kept])]

/-- Update e lands on entry i exactly when its index word, read signed, is i. -/
theorem resultIdx_iff {N M : ℕ} (d : ScatterDims ⟨1, ![N]⟩ ⟨2, ![M, 1]⟩ ⟨1, ![M]⟩)
    (hupd : d.updateWindowDims = []) (hins : d.insertedWindowDims = [0])
    (hsd : d.scatterDimsToOperandDims = [0]) (hiv : d.indexVectorDim = 1)
    (idx : IVec ⟨2, ![M, 1]⟩ 32) (e : Fin M) (i : Fin N) :
    d.resultIdx? (ix1 e) idx = some (ix1 i) ↔ (idx (ix2 e 0)).toInt = (i.val : ℤ) := by
  obtain ⟨hs, hw⟩ := start_window d hupd hins hsd hiv idx e
  unfold ScatterDims.resultIdx?
  split
  · next h =>
    have h0 := h 0
    rw [hs, hw] at h0
    constructor
    · intro hf
      have hv := congrArg (fun f : (⟨1, ![N]⟩ : Shape).Idx => (f 0).val) (Option.some.inj hf)
      change (d.start (ix1 e) idx 0 + ((d.window (ix1 e) 0 : ℕ) : ℤ)).toNat = i.val at hv
      rw [hs, hw] at hv
      omega
    · intro hh
      refine congrArg some ?_
      funext a
      match a with
      | ⟨0, _⟩ =>
        apply Fin.ext
        show (d.start (ix1 e) idx 0 + ((d.window (ix1 e) 0 : ℕ) : ℤ)).toNat = i.val
        rw [hs, hw]
        omega
  · next h =>
    constructor
    · intro hf
      cases hf
    · intro hh
      exfalso
      apply h
      intro a
      match a with
      | ⟨0, _⟩ =>
        show 0 ≤ d.start (ix1 e) idx 0 + ((d.window (ix1 e) 0 : ℕ) : ℤ)
          ∧ d.start (ix1 e) idx 0 + ((d.window (ix1 e) 0 : ℕ) : ℤ) < ((N : ℕ) : ℤ)
        rw [hs, hw]
        have := i.isLt
        omega

/-- Entry i of the result is entry i of the operand plus the sum of the updates whose index word, read signed, is i. -/
theorem scatterAdd_apply {N M : ℕ} (d : ScatterDims ⟨1, ![N]⟩ ⟨2, ![M, 1]⟩ ⟨1, ![M]⟩)
    (hupd : d.updateWindowDims = []) (hins : d.insertedWindowDims = [0])
    (hsd : d.scatterDimsToOperandDims = [0]) (hiv : d.indexVectorDim = 1)
    (x : (⟨1, ![N]⟩ : Shape).Idx → EReal) (idx : IVec ⟨2, ![M, 1]⟩ 32) (upd : (⟨1, ![M]⟩ : Shape).Idx → EReal)
    (i : Fin N) :
    Ideal.hostScatterAdd d x idx upd (ix1 i)
      = x (ix1 i) + ∑ e : Fin M, if (idx (ix2 e 0)).toInt = (i.val : ℤ) then upd (ix1 e) else 0 := by
  unfold Ideal.hostScatterAdd
  congr 1
  rw [Finset.sum_filter, sum_idx1]
  exact Finset.sum_congr rfl fun e _ => if_congr (resultIdx_iff d hupd hins hsd hiv idx e i) rfl rfl

end Cert.Lib.ScatterRows

end
-- ==== Proof.LibGatherAlong.lean ====
/-
  A gather that picks one column per row (jnp's take_along_axis along the last axis of a matrix), read at a row.

  The operand is an N × C matrix, the start indices an N × 1 × 1 array of words, the result N × 1. The row axis is a
  batching axis on both sides, the column axis is collapsed and start-indexed by the one-word index vector. So entry
  (r, 0) of the result is the operand's entry in row r at the column named by row r's word, read as a signed
  integer and clamped into [0, C − 1].
-/
import Idealize.ShloMosaic.PureOps.ShapeOps
import Idealize.ShloMosaic.Lib.ValueIdx

noncomputable section

namespace Cert.Lib.GatherAlong

open Idealize.ShloMosaic Idealize.ShloMosaic.ValueIdx

theorem gather_along_last {α : Type} {N C w : ℕ} (d : GatherDims ⟨2, ![N, C]⟩ ⟨3, ![N, 1, 1]⟩ ⟨2, ![N, 1]⟩)
    (hoff : d.offsetDims = []) (hcoll : d.collapsedSliceDims = [1]) (hob : d.operandBatchingDims = [0])
    (hsb : d.startIndicesBatchingDims = [0]) (hsim : d.startIndexMap = [1]) (hivd : d.indexVectorDim = 2)
    (x : (⟨2, ![N, C]⟩ : Shape).Idx → α) (idx : IVec ⟨3, ![N, 1, 1]⟩ w) (r : Fin N) (hC : 0 < C) :
    Host.gather d x idx (ix2 r 0)
      = x (ix2 r ⟨min (idx (ix3 r 0 0)).toInt.toNat (C - 1), by omega⟩) := by
  -- the collapsed column axis has slice size one, so its start is clamped into [0, C − 1]
  have hsl : d.sliceSizes 1 = 1 := d.slice_collapsed 1 (by rw [hcoll]; exact List.mem_singleton.mpr rfl)
  obtain ⟨od, cd, ob, sb, sim, ivd, ss, wf⟩ := d
  dsimp only at hoff hcoll hob hsb hsim hivd hsl
  subst hoff hcoll hob hsb hsim hivd
  unfold Host.gather
  congr 1
  funext a
  apply Fin.ext
  match a with
  | ⟨0, _⟩ =>
    -- the row axis: no start, no offset, the batching coordinate is the result's row
    simp [GatherDims.operandIdx, GatherDims.start, GatherDims.batchCoord, GatherDims.offCoord, GatherDims.siCoord,
      GatherDims.sKept, GatherDims.siKept, GatherDims.batchDims, Shape.kept]
    rfl
  | ⟨1, _⟩ =>
    -- the column axis: the clamped start read at (r, 0, 0), no batching coordinate, no offset
    simp [GatherDims.operandIdx, GatherDims.start, GatherDims.batchCoord, GatherDims.offCoord, GatherDims.siCoord,
      GatherDims.sKept, GatherDims.siKept, GatherDims.batchDims, Shape.kept]
    rw [hsl]
    congr 3
    congr 1
    funext b
    match b with
    | ⟨0, _⟩ =>
      unfold GatherDims.siIdx
      rw [dif_neg (by simp)]
      unfold GatherDims.siCoord
      apply Fin.ext
      rfl
    | ⟨1, _⟩ =>
      unfold GatherDims.siIdx
      rw [dif_neg (by simp)]
      unfold GatherDims.siCoord
      apply Fin.ext
      rfl
    | ⟨2, _⟩ =>
      unfold GatherDims.siIdx
      rw [dif_pos rfl]
      apply Fin.ext
      rfl

end Cert.Lib.GatherAlong

end
-- ==== Proof.LibReduceAnd.lean ====
/-
  An "and" over an axis of ones is one.

  The host's reduce with an "and" body is a left fold of "and" from the initial value over the entries that reduce to
  the result index. If the initial value is one and every entry of the operand is one, the result is one everywhere.
  (The library reads the other direction: a result that is one had ones everywhere.)
-/
import Idealize.ShloMosaic.Lib.ReduceAll

namespace Cert.Lib.ReduceAnd

open Idealize.ShloMosaic

theorem foldl_andi_one {ι : Type} (g : ι → BitVec 1) :
    ∀ l : List ι, (∀ n ∈ l, g n = 1#1) → l.foldl (fun r n => IntOp.andi r (g n)) 1#1 = 1#1
  | [], _ => rfl
  | a :: l, h => by
    rw [List.foldl_cons, h a List.mem_cons_self, show IntOp.andi 1#1 1#1 = 1#1 from by decide]
    exact foldl_andi_one g l fun n hn => h n (List.mem_cons_of_mem _ hn)

theorem reduce_andi_one {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  unfold Host.reduce
  rw [hinit]
  exact foldl_andi_one _ _ fun n _ => hx _

end Cert.Lib.ReduceAnd
-- ==== Proof.Consts.lean ====
/-
  The float one both programs spell (the word 0x3F800000) denotes the number one on the extended reals.
  (The zero word's reading is the library's `Ideal.ofBits_zero_f32`.)
-/
import Idealize.ShloMosaic.PureOps.Ideal

noncomputable section

namespace BER.Consts

open Idealize.ShloMosaic

theorem ofBits_one : Ideal.ofBits .f32 0x3F800000#32 = 1 := by
  simp [Ideal.ofBits, Ideal.ieee, -EReal.coe_mul]; norm_num

end BER.Consts

end
-- ==== Proof.RefValue.lean ====
/-
  The reference's group sums and group sizes, entry by entry, on the extended reals.

  With every class label in [0, 16): the label is not negative, so its normalisation (add 16 where negative) leaves
  it; the in-range mask (0 ≤ label ≤ 15, "and"-ed over a unit axis) is one at every row, so the select keeps the
  gathered score; the gather reads row j at the column named by the label (clamped into [0, 15]: no clamp happens).
  So row j's error is |1 − x[j, label j]|. The two scatters add, into entry k of a zero vector, the errors — and
  the ones — of the rows whose group word, read signed, is k; a word that names no entry lands nowhere.
-/
import proofs.«429717_j43009802502462_1_alg».proof.Proof.RefStages
import proofs.«429717_j43009802502462_1_alg».proof.Proof.Spec
import proofs.«429717_j43009802502462_1_alg».proof.Proof.LibScatterRows
import proofs.«429717_j43009802502462_1_alg».proof.Proof.LibGatherAlong
import proofs.«429717_j43009802502462_1_alg».proof.Proof.LibReduceAnd
import proofs.«429717_j43009802502462_1_alg».proof.Proof.Consts
import Idealize.ShloMosaic.Lib.Affine

noncomputable section

namespace BER.R

open Cert.ReferenceIdeal Cert.ReferenceIdeal.Gen Idealize.ShloMosaic Idealize.ShloMosaic.ValueIdx
open Cert.ReferenceIdeal.ReadP

/-- The float one is the number one. -/
theorem one_eq : BER.one = 1 := BER.Consts.ofBits_one

variable (x0 : (⟨S4194304x16, .f32⟩ : BufTy).Contents (Elt Ideal)) (x1 x2 : (⟨S4194304, .i32⟩ : BufTy).Contents (Elt Ideal))

/-! ## Index bookkeeping of the reshapes and broadcasts -/

theorem e_v5 (j : Fin 4194304) : idx_main_call0_v5 (ix3 j 0 0) = ix2 j 0 := by
  funext a
  match a with
  | ⟨0, _⟩ => exact Fin.ext (by show ((j.val * 1 + 0) * 1 + 0) / 1 = j.val; omega)
  | ⟨1, _⟩ => rfl
theorem e_v0 (j : Fin 4194304) : idx_main_v0 (ix2 j 0) = ix1 j := by
  funext a
  match a with
  | ⟨0, _⟩ => rfl
theorem e_v2 (j : Fin 4194304) : idx_main_v2 (ix1 j) = ix2 j 0 := by
  funext a
  match a with
  | ⟨0, _⟩ => exact Fin.ext (by show j.val / 1 = j.val; omega)
  | ⟨1, _⟩ => rfl
theorem e_v7 (j : Fin 4194304) : idx_main_v7 (ix2 j 0) = ix1 j := by
  funext a
  match a with
  | ⟨0, _⟩ => rfl
theorem e_v11 (j : Fin 4194304) : idx_main_v11 (ix2 j 0) = ix1 j := by
  funext a
  match a with
  | ⟨0, _⟩ => rfl

theorem eq_ix3_row (i : S4194304x1x1.Idx) : ∃ j : Fin 4194304, i = ix3 j 0 0 :=
  ⟨i 0, by
    funext a
    match a with
    | ⟨0, _⟩ => rfl
    | ⟨1, _⟩ => exact Fin.ext (by have h : (i 1).val < 1 := (i 1).isLt; show (i 1).val = 0; omega)
    | ⟨2, _⟩ => exact Fin.ext (by have h : (i 2).val < 1 := (i 2).isLt; show (i 2).val = 0; omega)⟩

/-! ## The label, normalised -/

/-- A label that is not negative is left as it is. -/
theorem label_at (j : Fin 4194304) (h0 : 0 ≤ (x1 (ix1 j)).toInt) :
    val_main_call0_v5 (F := Ideal) x1 (ix3 j 0 0) = x1 (ix1 j) := by
  rw [val_main_call0_v5_apply, e_v5, val_main_call0_v4_apply, val_main_call0_v1_apply, val_main_v0_apply, e_v0]
  have hz : val_main_call0_v0 (F := Ideal) (ix2 j 0) = 0#32 := rfl
  rw [hz]
  have hs : IntOp.cmpi .slt (x1 (ix1 j)) 0#32 = 0#1 :=
    eq_zero_of_ne_one fun h => by
      have := IntOp.cmpi_slt.1 h
      simp at this
      omega
  rw [hs, select_zero]

/-! ## The in-range mask -/

theorem mask_one (hT : ∀ j : Fin 4194304, 0 ≤ (x1 (ix1 j)).toInt ∧ (x1 (ix1 j)).toInt < 16) (i : S4194304x1.Idx) :
    val_main_call0_v12 (F := Ideal) x1 i = 1#1 := by
  unfold val_main_call0_v12
  refine Cert.Lib.ReduceAnd.reduce_andi_one _ _ _ _ rfl (fun i' => ?_) i
  obtain ⟨j, rfl⟩ := eq_ix3_row i'
  show IntOp.andi (IntOp.cmpi .sge (val_main_call0_v5 (F := Ideal) x1 (ix3 j 0 0)) (val_main_call0_v6 (F := Ideal) (ix3 j 0 0)))
    (IntOp.cmpi .sle (val_main_call0_v5 (F := Ideal) x1 (ix3 j 0 0)) (val_main_call0_v9 (F := Ideal) (ix3 j 0 0))) = 1#1
  rw [label_at x1 j (hT j).1]
  have h6 : val_main_call0_v6 (F := Ideal) (ix3 j 0 0) = 0#32 := rfl
  have h9 : val_main_call0_v9 (F := Ideal) (ix3 j 0 0) = 15#32 := rfl
  rw [h6, h9]
  refine IntOp.andi_eq_one.2 ⟨IntOp.cmpi_sge.2 ?_, IntOp.cmpi_sle.2 ?_⟩
  · have := (hT j).1; simpa using this
  · have := (hT j).2
    have e : (15#32 : BitVec 32).toInt = 15 := by decide
    rw [e]; omega

/-! ## The rows' errors -/

/-- Row j's error is |1 − the row's score at its label|, which is the indicator-weighted form. -/
theorem err_at (hT : ∀ j : Fin 4194304, 0 ≤ (x1 (ix1 j)).toInt ∧ (x1 (ix1 j)).toInt < 16) (j : Fin 4194304) :
    val_main_v5 (F := Ideal) x0 x1 (ix1 j) = BER.errRow x0 x1 j := by
  rw [val_main_v5_apply, val_main_v4_apply, val_main_v2_apply, e_v2, val_main_v1_apply, mask_one x1 hT, select_one]
  have hg : val_main_call0_v13 (F := Ideal) x0 x1 (ix2 j 0) = BER.selRow x0 x1 j := by
    unfold val_main_call0_v13
    rw [Cert.Lib.GatherAlong.gather_along_last gather_S4194304x16_S4194304x1x1_S4194304x1_n_1_0_0_1_2_11 rfl rfl rfl rfl rfl rfl
      x0 _ j (by norm_num), BER.selRow_eq x0 x1 j (hT j).1 (hT j).2]
    refine congrArg x0 (congrArg (ix2 j) (Fin.ext ?_))
    show min (val_main_call0_v5 (F := Ideal) x1 (ix3 j 0 0)).toInt.toNat (16 - 1) = (x1 (ix1 j)).toInt.toNat
    rw [label_at x1 j (hT j).1]
    have := (hT j).1; have := (hT j).2
    omega
  rw [hg]
  rfl

/-! ## The two scatters -/

/-- Entry k of the group error sums. -/
theorem sums_at (hT : ∀ j : Fin 4194304, 0 ≤ (x1 (ix1 j)).toInt ∧ (x1 (ix1 j)).toInt < 16) (k : Fin 8) :
    val_main_v8 (F := Ideal) x0 x1 x2 (ix1 k) = BER.zero + BER.sumRows x0 x1 x2 k := by
  have key := Cert.Lib.ScatterRows.scatterAdd_apply scatter_S8_S4194304x1_S4194304_n_0_0_1 rfl rfl rfl rfl
    (val_main_v6 (F := Ideal)) (val_main_v7 (F := Ideal) x2) (val_main_v5 (F := Ideal) x0 x1) k
  have e8 : val_main_v8 (F := Ideal) x0 x1 x2
      = Ideal.hostScatterAdd scatter_S8_S4194304x1_S4194304_n_0_0_1 (val_main_v6 (F := Ideal)) (val_main_v7 (F := Ideal) x2)
          (val_main_v5 (F := Ideal) x0 x1) := rfl
  rw [e8, key, BER.sumRows_eq_ite]
  have hz : val_main_v6 (F := Ideal) (ix1 k) = BER.zero := rfl
  rw [hz]
  refine congrArg (BER.zero + ·) (Finset.sum_congr rfl fun e _ => ?_)
  rw [val_main_v7_apply, e_v7, err_at x0 x1 hT]

/-- Entry k of the group sizes. -/
theorem cnts_at (k : Fin 8) : val_main_v12 (F := Ideal) x2 (ix1 k) = BER.zero + BER.cntRows x2 k := by
  have key := Cert.Lib.ScatterRows.scatterAdd_apply scatter_S8_S4194304x1_S4194304_n_0_0_1 rfl rfl rfl rfl
    (val_main_v10 (F := Ideal)) (val_main_v11 (F := Ideal) x2) (val_main_v9 (F := Ideal)) k
  have e12 : val_main_v12 (F := Ideal) x2
      = Ideal.hostScatterAdd scatter_S8_S4194304x1_S4194304_n_0_0_1 (val_main_v10 (F := Ideal)) (val_main_v11 (F := Ideal) x2)
          (val_main_v9 (F := Ideal)) := rfl
  rw [e12, key, BER.cntRows_eq_ite]
  have hz : val_main_v10 (F := Ideal) (ix1 k) = BER.zero := rfl
  rw [hz]
  refine congrArg (BER.zero + ·) (Finset.sum_congr rfl fun e _ => ?_)
  rw [val_main_v11_apply, e_v11]
  have h1 : val_main_v9 (F := Ideal) (ix1 e) = 1 := one_eq
  rw [h1]

end BER.R

end
-- ==== Proof.lean ====
/-
  The balanced error rate loss: the kernel against its jnp reference, over the extended reals.

  Both programs compute, from scores x (4194304 rows × 16 columns), class labels t and group labels g,

    e j = |1 − x[j, t j]|,   S k = Σ_j [g j = k] · e j,   C k = Σ_j [g j = k]   (k = 0, …, 7),
    loss = |1/2 − (1/8) Σ_k (S k / max (C k, 1) if C k > 0 else 0)|.

  The reference gathers x[j, t j] (take_along_axis: a negative label is first increased by 16, a label outside
  [0, 15] after that reads as NaN) and forms S and C by two accumulating scatters into zero vectors, which drop a group
  label that names no entry. The kernel never indexes: it multiplies each block of 8192 rows by the indicator rows
  of the labels and sums — x[j, t j] = Σ_c x[j, c] · [t j = c], S k = Σ_j e j · [g j = k] —, adds the blocks into two
  running sums that restart at block 256, writes the two halves to 2 × 1 × 8 arrays, and the host adds the halves. From
  S and C on, both programs run the same host operations.

  The indicator form of the selection is the gather exactly when the label names a column: for a label in [−16, −1]
  the reference wraps and the kernel's indicator row is empty, and outside [−16, 15] the reference is NaN. The
  precondition therefore carries 0 ≤ t j < 16 beside the finiteness of x. Nothing else is needed: on the
  extended reals 0 · a = 0 and 1 · a = a for every a, and a finite sum does not depend on order or grouping, so the
  proof never uses that x is finite; and a group label outside [0, 7] is dropped by both programs alike.

  The frames of the two kernel programs and the kernel's run are the generated ones; the reference's run is read back
  stretch by stretch (Proof/RefStages.lean). `preserves` has no conjunct.
-/
import proofs.«429717_j43009802502462_1_alg».proof.Defs
import proofs.«429717_j43009802502462_1_alg».proof.Proof.Gen.Kernel
import proofs.«429717_j43009802502462_1_alg».proof.Proof.Gen.Kernel.Skeleton
import proofs.«429717_j43009802502462_1_alg».proof.Proof.Gen.Kernel.Launch
import proofs.«429717_j43009802502462_1_alg».proof.Proof.Gen.Kernel.Points
import proofs.«429717_j43009802502462_1_alg».proof.Proof.Gen.Kernel.Frame
import proofs.«429717_j43009802502462_1_alg».proof.Proof.Gen.KernelIdeal
import proofs.«429717_j43009802502462_1_alg».proof.Proof.Gen.KernelIdeal.Skeleton
import proofs.«429717_j43009802502462_1_alg».proof.Proof.Gen.KernelIdeal.Launch
import proofs.«429717_j43009802502462_1_alg».proof.Proof.Gen.KernelIdeal.Points
import proofs.«429717_j43009802502462_1_alg».proof.Proof.Gen.KernelIdeal.Frame
import proofs.«429717_j43009802502462_1_alg».proof.Proof.Gen.ReferenceIdeal
import proofs.«429717_j43009802502462_1_alg».proof.Proof.Gen.Pre_finite_inputs
import proofs.«429717_j43009802502462_1_alg».proof.Proof.Pre
import proofs.«429717_j43009802502462_1_alg».proof.Proof.KValue
import proofs.«429717_j43009802502462_1_alg».proof.Proof.RefValue
import Idealize.ShloMosaic.Adequacy
import Idealize.ShloMosaic.Init

noncomputable section

namespace Cert.Proof

open Idealize.ShloMosaic Idealize.ShloMosaic.ValueIdx Idealize.SL.Sem

/-- The word-level kernel runs and keeps its arguments: the generated frame. -/
theorem frame_k : Cert.frame_Kernel := fun m ρ _ => Cert.Kernel.Gen.frame m ρ

/-- The idealized kernel runs and keeps its arguments: the generated frame. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (BER.R.run (F := Ideal) m ρ)

/-- From the group sums and sizes on, the two programs run the same operations. -/
theorem tail_eq (S C : (⟨Cert.KernelIdeal.S8, .f32⟩ : BufTy).Contents (Elt Ideal)) :
    BER.K.tail (F := Ideal) S C = BER.R.tail (F := Ideal) S C := rfl

/-- At the ideal values, from memories that agree on the arguments and under the precondition, the kernel's result is
    the tail of its two sums over the halves and the reference's the tail of its two scatters; entry by entry both are
    zero + Σ_j e j · [g j = k] and zero + Σ_j [g j = k]. -/
theorem algebraic : Cert.algebraic_KernelIdeal_ReferenceIdeal := by
  intro m ρ m' ρ' hpre hagree
  refine ⟨fun c => BER.K.tail (F := Ideal) (BER.K.halvesSum (BER.K.G3 m c)) (BER.K.halvesSum (BER.K.G4 m c)),
    BER.K.run (F := Ideal) m ρ, ?_⟩
  refine (θ_run Cert.ReferenceIdeal.defs _ _).mono (fun _ h c => ⟨(h c).1.trans ?_, (h c).2⟩)
    (BER.R.run (F := Ideal) m' ρ')
  rw [(hagree c).1, (hagree c).2.1, (hagree c).2.2, BER.R.val_main_v22_tail]
  have hT : ∀ j : Fin 4194304,
      0 ≤ (m ((c.tc : Thread Cert.KernelIdeal.nD Cert.KernelIdeal.τ).loc Cert.KernelIdeal.main_arg1) (ix1 j)).toInt
      ∧ (m ((c.tc : Thread Cert.KernelIdeal.nD Cert.KernelIdeal.τ).loc Cert.KernelIdeal.main_arg1) (ix1 j)).toInt < 16 :=
    fun j => BER.Pre.label_range (F := Ideal) _ _ _ (hpre c) j
  have hS : Cert.ReferenceIdeal.ReadP.val_main_v8 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      = BER.K.halvesSum (F := Ideal) (BER.K.G3 m c) := by
    funext i
    obtain ⟨k, rfl⟩ : ∃ k : Fin 8, i = ix1 k := ⟨i 0, eq_ix1 i⟩
    rw [BER.R.sums_at _ _ _ hT k]
    exact (BER.K.halves_s m c k).symm
  have hC : Cert.ReferenceIdeal.ReadP.val_main_v12 (F := Ideal)
      (m ((c.tc : Thread Cert.KernelIdeal.nD Cert.KernelIdeal.τ).loc Cert.KernelIdeal.main_arg2))
      = BER.K.halvesSum (F := Ideal) (BER.K.G4 m c) := by
    funext i
    obtain ⟨k, rfl⟩ : ∃ k : Fin 8, i = ix1 k := ⟨i 0, eq_ix1 i⟩
    rw [BER.R.cnts_at _ k]
    exact (BER.K.halves_c m c k).symm
  rw [hS, hC]
  exact (tail_eq _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
